-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S100000x64 : Shape := ⟨2, ![100000, 64]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S1024x64 .f32) (main_arg1 : FVec F S100000x64 .f32) (main_arg2 : FVec F S100000x64 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg2
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  main_v13
-- ==== Kernel.lean ====
abbrev S1024x64 : Shape := ⟨2, ![1024, 64]⟩
abbrev S100000x64 : Shape := ⟨2, ![100000, 64]⟩
abbrev S2000x64 : Shape := ⟨2, ![2000, 64]⟩
abbrev S1024x1 : Shape := ⟨2, ![1024, 1]⟩
abbrev S1024 : Shape := ⟨1, ![1024]⟩
abbrev S1x64 : Shape := ⟨2, ![1, 64]⟩
abbrev S1x2000 : Shape := ⟨2, ![1, 2000]⟩
abbrev S1024x2000 : Shape := ⟨2, ![1024, 2000]⟩

abbrev nBuf : Space → Nat
  | .hbm => 4
  | .vmem => 8
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S100000x64, .f32⟩
  | .hbm, ⟨3, _⟩ => ⟨S1024x64, .f32⟩
  | .local _ .vmem, ⟨0, _⟩ => ⟨S1024x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S1024x64, .f32⟩
  | .local _ .vmem, ⟨6, _⟩ => ⟨S1024x64, .f32⟩
  | .local _ .vmem, ⟨7, _⟩ => ⟨S1024x1, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  broadcasts_S1024x1_S1024x64 : S1024x1.Broadcasts S1024x64
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2000x64_S2000x64_0_0 : ∀ a, (![0, 0] : Fin 2 → Nat) a + S2000x64.size a ≤ S2000x64.size a
  h_S2000x64 : 0 < S2000x64.numel
  broadcasts_S1x2000_S1024x2000 : S1x2000.Broadcasts S1024x2000
  reduces_S1024x2000_S1024 : S1024x2000.Reduces [1] S1024
  dot_S1x64_S2000x64_S1x2000_1_1_0_0_n_n_wf : DotDims.WF S1x64 S2000x64 S1x2000 [1] [1] [0] [0] [] []
  dot_S1024x64_S2000x64_S1024x2000_1_1_0_0_n_n_wf : DotDims.WF S1024x64 S2000x64 S1024x2000 [1] [1] [0] [0] [] []
  dot_S1024x2000_S2000x64_S1024x64_1_0_0_1_n_n_wf : DotDims.WF S1024x2000 S2000x64 S1024x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S1024x64.size a
  hwx0_0 : ∀ i : grid0.Coords, EltTy.bits .f32 = 32 ∨ (Rect.block (s := S1024x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)

variable [Facts₀]

def dot_S1x64_S2000x64_S1x2000_1_1_0_0_n_n : DotDims S1x64 S2000x64 S1x2000 where
  lhsContracting := [1]
  rhsContracting := [1]
  lhsNonContracting := [0]
  rhsNonContracting := [0]
  lhsBatch := []
  rhsBatch := []
  wf := dot_S1x64_S2000x64_S1x2000_1_1_0_0_n_n_wf
def dot_S1024x64_S2000x64_S1024x2000_1_1_0_0_n_n : DotDims S1024x64 S2000x64 S1024x2000 where
  lhsContracting := [1]
  rhsContracting := [1]
  lhsNonContracting := [0]
  rhsNonContracting := [0]
  lhsBatch := []
  rhsBatch := []
  wf := dot_S1024x64_S2000x64_S1024x2000_1_1_0_0_n_n_wf
def dot_S1024x2000_S2000x64_S1024x64_1_0_0_1_n_n : DotDims S1024x2000 S2000x64 S1024x64 where
  lhsContracting := [1]
  rhsContracting := [0]
  lhsNonContracting := [0]
  rhsNonContracting := [1]
  lhsBatch := []
  rhsBatch := []
  wf := dot_S1024x2000_S2000x64_S1024x64_1_0_0_1_n_n_wf

abbrev win0_0 : Pipeline.Window sig grid0 :=
  Pipeline.Window.ofSpec (Memref.whole main_arg0) S1024x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x64.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x64 : Shape := ⟨2, ![1024, 64]⟩
abbrev S100000x64 : Shape := ⟨2, ![100000, 64]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S64x100000 : Shape := ⟨2, ![64, 100000]⟩
abbrev S1024x100000 : Shape := ⟨2, ![1024, 100000]⟩

abbrev nBuf : Space → Nat
  | .hbm => 40
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S100000x64, .f32⟩
  | .hbm, ⟨2, _⟩ => ⟨S100000x64, .f32⟩
  | .hbm, ⟨3, _⟩ => ⟨S1024x64, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x64, .f32⟩
  | .hbm, ⟨12, _⟩ => ⟨S1024x64, .f32⟩
  | .hbm, ⟨13, _⟩ => ⟨S100000x64, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x64, .f32⟩
  | .hbm, ⟨22, _⟩ => ⟨S100000x64, .f32⟩
  | .hbm, ⟨23, _⟩ => ⟨S64x100000, .f32⟩
  | .hbm, ⟨24, _⟩ => ⟨S1024x100000, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1024x1, .f32⟩
  | .hbm, ⟨31, _⟩ => ⟨S1024x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024, .f32⟩
  | .hbm, ⟨36, _⟩ => ⟨S1024x1, .f32⟩
  | .hbm, ⟨37, _⟩ => ⟨S1024x100000, .f32⟩
  | .hbm, ⟨38, _⟩ => ⟨S1024x100000, .f32⟩
  | .hbm, ⟨39, _⟩ => ⟨S1024x64, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  reducesTo_S1024x64_S1024_d1 : S1024x64.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  reducesTo_S100000x64_S100000_d1 : S100000x64.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S100000x64_S64x100000_1_0 : S100000x64.Transposes [1, 0] S64x100000
  reducesTo_S1024x100000_S1024_d1 : S1024x100000.ReducesTo [1] S1024
  bcast_S_S1024 : S_.BroadcastsInDim S1024 (![] : Fin 0 → Fin S1024.rank)
  bcast_S1024x1_S1024x100000_0_1 : S1024x1.BroadcastsInDim S1024x100000 (![0, 1] : Fin 2 → Fin S1024x100000.rank)
  dot_S1024x64_S64x100000_S1024x100000_1_0_0_1_n_n_wf : DotDims.WF S1024x64 S64x100000 S1024x100000 [1] [0] [0] [1] [] []
  dot_S1024x100000_S100000x64_S1024x64_1_0_0_1_n_n_wf : DotDims.WF S1024x100000 S100000x64 S1024x64 [1] [0] [0] [1] [] []

variable [Facts₀]

def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf
def dot_S1024x100000_S100000x64_S1024x64_1_0_0_1_n_n : DotDims S1024x100000 S100000x64 S1024x64 where
  lhsContracting := [1]
  rhsContracting := [0]
  lhsNonContracting := [0]
  rhsNonContracting := [1]
  lhsBatch := []
  rhsBatch := []
  wf := dot_S1024x100000_S100000x64_S1024x64_1_0_0_1_n_n_wf

class Facts : Prop extends Facts₀ where

variable [Facts]
-- ==== Proof.Pieces.lean ====
/-
  What one grid point leaves behind, case by case, as the body's arithmetic.

  The body runs in three cases.  At the first point it stores the normalised queries, zeroes the normaliser and the
  weighted sum, and then adds the first block's share to both.  At a middle point it adds the block's share to both,
  reading the normalised queries it stored at the first point.  At the last point it does the same and then divides the
  weighted sum by the normaliser.  Each buffer is stored whole, so what it holds afterwards is the last value stored.
-/
import proofs.«107597_g84808424227249_cont_9to1c4b_397_3_alg».proof.Proof.Gen.KernelIdeal.Frame
import Idealize.ShloMosaic.Lib.Pipeline.Value
import Idealize.ShloMosaic.Lib.Tactic

noncomputable section

namespace Cert.RelMem.Pieces

open Idealize.ShloMosaic Idealize.ShloMosaic.TcCoe Idealize.SL.Sem Cert.KernelIdeal Cert.KernelIdeal.Gen

variable {F : FTy → Type} [FloatOps F] [Named F]

theorem hz : (![0, 0] : Fin 2 → Nat) = fun _ => 0 := funext fun a => by fin_cases a <;> rfl

/-- A middle point leaves in the output's buffer the weighted sum it held plus the block's share. -/
theorem out_B (c : Dev nD) (i : grid0.Coords) (a1 : Memref sig .tc .vmem S1024x64 .f32) (h1 : a1.IsWhole) (a2 : Memref sig .tc .vmem S2000x64 .f32) (h2 : a2.IsWhole) (a3 : Memref sig .tc .vmem S2000x64 .f32) (h3 : a3.IsWhole) (a4 : Memref sig .tc .vmem S1024x64 .f32) (h4 : a4.IsWhole) (a5 : Memref sig .tc .vmem S1024x64 .f32) (h5 : a5.IsWhole) (a6 : Memref sig .tc .vmem S1024x1 .f32) (h6 : a6.IsWhole) (hc0 : ¬cond0_0 i) (hc1 : ¬cond0_1 i) (x0 : Vec F S1024x64 .f32) (x1 x2 : Vec F S2000x64 .f32) (xo3 : Vec F S1024x64 .f32) (xs0 : Vec F S1024x64 .f32) (xs1 : Vec F S1024x1 .f32) :
    out0_B_3 c i a1 h1 a2 h2 a3 h3 a4 h4 a5 h5 a6 h6 hc0 hc1 x0 x1 x2 xo3 xs0 xs1 = k0_pay6 x1 xs0 xo3 x2 := by
  unfold out0_B_3
  rw [View.read_writes_eq_canon _ _ _ (cover0_B_3 c i a1 h1 a2 h2 a3 h3 a4 h4 a5 h5 a6 h6 hc0 hc1 x0 x1 x2 xo3 xs0 xs1)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S1024x64) hz, View.ld_unit_zero (S := S2000x64) hz, View.ld_unit_zero (S := S1024x1) hz, View.readCov_unit_zero (S := S1024x64) _ hz, View.readCov_unit_zero (S := S1024x1) _ hz]

/-- A middle point leaves in the normaliser's buffer what it held plus the block's row sums. -/
theorem nrm_B (c : Dev nD) (i : grid0.Coords) (a1 : Memref sig .tc .vmem S1024x64 .f32) (h1 : a1.IsWhole) (a2 : Memref sig .tc .vmem S2000x64 .f32) (h2 : a2.IsWhole) (a3 : Memref sig .tc .vmem S2000x64 .f32) (h3 : a3.IsWhole) (a4 : Memref sig .tc .vmem S1024x64 .f32) (h4 : a4.IsWhole) (a5 : Memref sig .tc .vmem S1024x64 .f32) (h5 : a5.IsWhole) (a6 : Memref sig .tc .vmem S1024x1 .f32) (h6 : a6.IsWhole) (hc0 : ¬cond0_0 i) (hc1 : ¬cond0_1 i) (x0 : Vec F S1024x64 .f32) (x1 x2 : Vec F S2000x64 .f32) (xo3 : Vec F S1024x64 .f32) (xs0 : Vec F S1024x64 .f32) (xs1 : Vec F S1024x1 .f32) :
    sout0_B_1 c i a1 h1 a2 h2 a3 h3 a4 h4 a5 h5 a6 h6 hc0 hc1 x0 x1 x2 xo3 xs0 xs1 = k0_pay5 x1 xs0 xs1 := by
  unfold sout0_B_1
  rw [View.read_writes_eq_canon _ _ _ (scover0_B_1 c i a1 h1 a2 h2 a3 h3 a4 h4 a5 h5 a6 h6 hc0 hc1 x0 x1 x2 xo3 xs0 xs1)]
  unfold kernelRun0_B
  dsimp only
  sl_unfold_words
  rw [View.canon_unit_zero hz]
  simp only [View.readAt_eq_ld, h1.read_unread, h2.read_unread, h3.read_unread, h4.read_unread, h5.read_unread, h6.read_unread, View.ld_unit_zero (S := S1024x64) hz, View.ld_unit_zero (S := S2000x64) hz, View.ld_unit_zero (S := S1024x1) hz, View.readCov_unit_zero (S := S1024x64) _ hz, View.readCov_unit_zero (S := S1024x1) _ hz]

/-- The last point adds the block's share to the weighted sum and then divides it by the updated normaliser. -/
theorem out_C (c : Dev nD) (i : grid0.Coords) (a1 : Memref sig .tc .vmem S1024x64 .f32) (h1 : a1.IsWhole) (a2 : Memref sig .tc .vmem S2000x64 .f32) (h2 : a2.IsWhole) (a3 : Memref sig .tc .vmem S2000x64 .f32) (h3 : a3.IsWhole) (a4 : Memref sig .tc .vmem S1024x64 .f32) (h4 : a4.IsWhole) (a5 : Memref sig .tc .vmem S1024x64 .f32) (h5 : a5.IsWhole) (a6 : Memref sig .tc .vmem S1024x1 .f32) (h6 : a6.IsWhole) (hc0 : ¬cond0_0 i) (hc1 : cond0_1 i) (x0 : Vec F S1024x64 .f32) (x1 x2 : Vec F S2000x64 .f32) (xo3 : Vec F S1024x64 .f32) (xs0 : Vec F S1024x64 .f32) (xs1 : Vec F S1024x1 .f32) :
    out0_C_3 c i a1 h1 a2 h2 a3 h3 a4 h4 a5 h5 a6 h6 hc0 hc1 x0 x1 x2 xo3 xs0 xs1 = k0_pay7 (k0_pay6 x1 xs0 xo3 x2) (k0_pay5 x1 xs0 xs1) := by
  unfold out0_C_3
  rw [View.read_writes_eq_canon _ _ _ (cover0_C_3 c i a1 h1 a2 h2 a3 h3 a4 h4 a5 h5 a6 h6 hc0 hc1 x0 x1 x2 xo3 xs0 xs1)]
  unfold kernelRun0_C
  dsimp only
  sl_unfold_words
  rw [View.canon_cons_unit_zero (S := S1024x64) hz, View.readCov_unit_zero (S := S1024x64) _ hz]
  simp only [View.readAt_eq_ld, h1.read_unread, h2.read_unread, h3.read_unread, h4.read_unread, h5.read_unread, h6.read_unread, View.ld_unit_zero (S := S1024x64) hz, View.ld_unit_zero (S := S2000x64) hz, View.ld_unit_zero (S := S1024x1) hz, View.readCov_unit_zero (S := S1024x64) _ hz, View.readCov_unit_zero (S := S1024x1) _ hz]

/-- The last point leaves in the normaliser's buffer what it held plus the block's row sums. -/
theorem nrm_C (c : Dev nD) (i : grid0.Coords) (a1 : Memref sig .tc .vmem S1024x64 .f32) (h1 : a1.IsWhole) (a2 : Memref sig .tc .vmem S2000x64 .f32) (h2 : a2.IsWhole) (a3 : Memref sig .tc .vmem S2000x64 .f32) (h3 : a3.IsWhole) (a4 : Memref sig .tc .vmem S1024x64 .f32) (h4 : a4.IsWhole) (a5 : Memref sig .tc .vmem S1024x64 .f32) (h5 : a5.IsWhole) (a6 : Memref sig .tc .vmem S1024x1 .f32) (h6 : a6.IsWhole) (hc0 : ¬cond0_0 i) (hc1 : cond0_1 i) (x0 : Vec F S1024x64 .f32) (x1 x2 : Vec F S2000x64 .f32) (xo3 : Vec F S1024x64 .f32) (xs0 : Vec F S1024x64 .f32) (xs1 : Vec F S1024x1 .f32) :
    sout0_C_1 c i a1 h1 a2 h2 a3 h3 a4 h4 a5 h5 a6 h6 hc0 hc1 x0 x1 x2 xo3 xs0 xs1 = k0_pay5 x1 xs0 xs1 := by
  unfold sout0_C_1
  rw [View.read_writes_eq_canon _ _ _ (scover0_C_1 c i a1 h1 a2 h2 a3 h3 a4 h4 a5 h5 a6 h6 hc0 hc1 x0 x1 x2 xo3 xs0 xs1)]
  unfold kernelRun0_C
  dsimp only
  sl_unfold_words
  rw [View.canon_unit_zero hz]
  simp only [View.readAt_eq_ld, h1.read_unread, h2.read_unread, h3.read_unread, h4.read_unread, h5.read_unread, h6.read_unread, View.ld_unit_zero (S := S1024x64) hz, View.ld_unit_zero (S := S2000x64) hz, View.ld_unit_zero (S := S1024x1) hz, View.readCov_unit_zero (S := S1024x64) _ hz, View.readCov_unit_zero (S := S1024x1) _ hz]

/-- The first point stores the normalised queries. -/
theorem qry_A (c : Dev nD) (i : grid0.Coords) (a1 : Memref sig .tc .vmem S1024x64 .f32) (h1 : a1.IsWhole) (a2 : Memref sig .tc .vmem S2000x64 .f32) (h2 : a2.IsWhole) (a3 : Memref sig .tc .vmem S2000x64 .f32) (h3 : a3.IsWhole) (a4 : Memref sig .tc .vmem S1024x64 .f32) (h4 : a4.IsWhole) (a5 : Memref sig .tc .vmem S1024x64 .f32) (h5 : a5.IsWhole) (a6 : Memref sig .tc .vmem S1024x1 .f32) (h6 : a6.IsWhole) (hc0 : cond0_0 i) (hc1 : ¬cond0_1 i) (x0 : Vec F S1024x64 .f32) (x1 x2 : Vec F S2000x64 .f32) :
    sout0_A_0 c i a1 h1 a2 h2 a3 h3 a4 h4 a5 h5 a6 h6 hc0 hc1 x0 x1 x2 = k0_pay1 x0 := by
  unfold sout0_A_0
  rw [View.read_writes_eq_canon _ _ _ (scover0_A_0 c i a1 h1 a2 h2 a3 h3 a4 h4 a5 h5 a6 h6 hc0 hc1 x0 x1 x2)]
  unfold kernelRun0_A
  dsimp only
  sl_unfold_words
  rw [View.canon_unit_zero hz]
  simp only [View.readAt_eq_ld, h1.read_unread, h2.read_unread, h3.read_unread, h4.read_unread, h5.read_unread, h6.read_unread, View.ld_unit_zero (S := S1024x64) hz, View.ld_unit_zero (S := S2000x64) hz, View.ld_unit_zero (S := S1024x1) hz, View.readCov_unit_zero (S := S1024x64) _ hz, View.readCov_unit_zero (S := S1024x1) _ hz]

/-- The first point zeroes the normaliser and adds the first block's row sums, with the queries it has just stored. -/
theorem nrm_A (c : Dev nD) (i : grid0.Coords) (a1 : Memref sig .tc .vmem S1024x64 .f32) (h1 : a1.IsWhole) (a2 : Memref sig .tc .vmem S2000x64 .f32) (h2 : a2.IsWhole) (a3 : Memref sig .tc .vmem S2000x64 .f32) (h3 : a3.IsWhole) (a4 : Memref sig .tc .vmem S1024x64 .f32) (h4 : a4.IsWhole) (a5 : Memref sig .tc .vmem S1024x64 .f32) (h5 : a5.IsWhole) (a6 : Memref sig .tc .vmem S1024x1 .f32) (h6 : a6.IsWhole) (hc0 : cond0_0 i) (hc1 : ¬cond0_1 i) (x0 : Vec F S1024x64 .f32) (x1 x2 : Vec F S2000x64 .f32) :
    sout0_A_1 c i a1 h1 a2 h2 a3 h3 a4 h4 a5 h5 a6 h6 hc0 hc1 x0 x1 x2 = k0_pay5 x1 (k0_pay1 x0) (k0_pay2 (F := F)) := by
  unfold sout0_A_1
  rw [View.read_writes_eq_canon _ _ _ (scover0_A_1 c i a1 h1 a2 h2 a3 h3 a4 h4 a5 h5 a6 h6 hc0 hc1 x0 x1 x2)]
  unfold kernelRun0_A
  dsimp only
  sl_unfold_words
  rw [View.canon_cons_unit_zero (S := S1024x1) hz, View.readCov_unit_zero (S := S1024x1) _ hz]
  simp only [View.readAt_eq_ld, h1.read_unread, h2.read_unread, h3.read_unread, h4.read_unread, h5.read_unread, h6.read_unread, View.ld_unit_zero (S := S1024x64) hz, View.ld_unit_zero (S := S2000x64) hz, View.ld_unit_zero (S := S1024x1) hz, View.readCov_unit_zero (S := S1024x64) _ hz, View.readCov_unit_zero (S := S1024x1) _ hz]

/-- The first point zeroes the weighted sum and adds the first block's share, with the queries it has just stored. -/
theorem out_A (c : Dev nD) (i : grid0.Coords) (a1 : Memref sig .tc .vmem S1024x64 .f32) (h1 : a1.IsWhole) (a2 : Memref sig .tc .vmem S2000x64 .f32) (h2 : a2.IsWhole) (a3 : Memref sig .tc .vmem S2000x64 .f32) (h3 : a3.IsWhole) (a4 : Memref sig .tc .vmem S1024x64 .f32) (h4 : a4.IsWhole) (a5 : Memref sig .tc .vmem S1024x64 .f32) (h5 : a5.IsWhole) (a6 : Memref sig .tc .vmem S1024x1 .f32) (h6 : a6.IsWhole) (hc0 : cond0_0 i) (hc1 : ¬cond0_1 i) (x0 : Vec F S1024x64 .f32) (x1 x2 : Vec F S2000x64 .f32) :
    out0_A_3 c i a1 h1 a2 h2 a3 h3 a4 h4 a5 h5 a6 h6 hc0 hc1 x0 x1 x2 = k0_pay6 x1 (k0_pay1 x0) (k0_pay3 (F := F)) x2 := by
  unfold out0_A_3
  rw [View.read_writes_eq_canon _ _ _ (cover0_A_3 c i a1 h1 a2 h2 a3 h3 a4 h4 a5 h5 a6 h6 hc0 hc1 x0 x1 x2)]
  unfold kernelRun0_A
  dsimp only
  sl_unfold_words
  rw [View.canon_cons_unit_zero (S := S1024x64) hz, View.readCov_unit_zero (S := S1024x64) _ hz]
  simp only [View.readAt_eq_ld, h1.read_unread, h2.read_unread, h3.read_unread, h4.read_unread, h5.read_unread, h6.read_unread, View.ld_unit_zero (S := S1024x64) hz, View.ld_unit_zero (S := S2000x64) hz, View.ld_unit_zero (S := S1024x1) hz, View.readCov_unit_zero (S := S1024x64) _ hz, View.readCov_unit_zero (S := S1024x1) _ hz]

end Cert.RelMem.Pieces

end
-- ==== Proof.Spec.lean ====
/-
  The mathematics of the two programs, over the reals.

  Both compute attention of 1024 query rows over 100000 memory rows (key, value), all rows of width 64:
  a query row is divided by its Euclidean norm, floored at a small positive guard `g`; the similarity of query row `r` and
  key row `j` is the inner product of the normalised query with the key, divided by the key's norm floored at the same
  guard; the weight of `j` for `r` is the exponential of the similarity; the result row is the weighted mean of the value
  rows.  The guard is the exact dyadic rational that the single-precision pattern of 1e-12 denotes.

  One program floors the key's norm (`max (sqrt s) g`), the other floors the squared norm at the guard's square and takes
  the inverse square root (`(sqrt (max s (g*g)))⁻¹`): equal because the square root is monotone and `sqrt (g*g) = g`.
  One program subtracts the row maximum before exponentiating and normalises each weight before the weighted sum of values
  (the usual softmax); the other sums unnormalised weights block by block (50 blocks of 2000 memory rows) and divides once
  at the end: equal because `exp (s - M) = exp s * exp (-M)` and the common positive factor cancels from the quotient.
-/
import Mathlib.Analysis.SpecialFunctions.Exp
import Mathlib.Analysis.SpecialFunctions.Sqrt
import Mathlib.Algebra.BigOperators.Fin
import Idealize.ShloMosaic.Lib.ValueIdx

noncomputable section

open scoped BigOperators

namespace Cert.RelMem

open Idealize.ShloMosaic Idealize.ShloMosaic.ValueIdx

/-- Query rows and result rows: 1024 rows of width 64. -/
abbrev SQ : Shape := ⟨2, ![1024, 64]⟩
/-- Memory rows (keys, values): 100000 rows of width 64. -/
abbrev SM : Shape := ⟨2, ![100000, 64]⟩

/-- The guard: the value of the single-precision pattern of 1e-12, `2305843 / 2^61`. -/
def guard : ℝ := 2305843 / 2305843009213693952

theorem guard_pos : 0 < guard := by unfold guard; norm_num

/-- The guard's square, as the fraction in lowest terms. -/
theorem guard_sq : guard * guard = 5316911940649 / 5316911983139663491615228241121378304 := by
  unfold guard; norm_num

variable (L : SQ.Idx → ℝ) (K V : SM.Idx → ℝ)

/-- The squared norm of query row `r`. -/
def qsq (r : Fin 1024) : ℝ := ∑ e : Fin 64, L (ix2 r e) * L (ix2 r e)
/-- The normalised query. -/
def qn (r : Fin 1024) (d : Fin 64) : ℝ := L (ix2 r d) / max (Real.sqrt (qsq L r)) guard
/-- The squared norm of key row `j`. -/
def ksq (j : Fin 100000) : ℝ := ∑ e : Fin 64, K (ix2 j e) * K (ix2 j e)
/-- The inner product of the normalised query `r` with the raw key `j`. -/
def raw (r : Fin 1024) (j : Fin 100000) : ℝ := ∑ e : Fin 64, qn L r e * K (ix2 j e)
/-- The similarity: the inner product scaled by the inverse of the key's floored norm. -/
def sim (r : Fin 1024) (j : Fin 100000) : ℝ := raw L K r j * (Real.sqrt (max (ksq K j) (guard * guard)))⁻¹
/-- The unnormalised weight. -/
def wgt (r : Fin 1024) (j : Fin 100000) : ℝ := Real.exp (sim L K r j)
/-- The normaliser of row `r`. -/
def den (r : Fin 1024) : ℝ := ∑ j : Fin 100000, wgt L K r j
/-- The weighted sum of values. -/
def num (r : Fin 1024) (c : Fin 64) : ℝ := ∑ j : Fin 100000, wgt L K r j * V (ix2 j c)
/-- The attention output. -/
def out (r : Fin 1024) (c : Fin 64) : ℝ := num L K V r c / den L K r

/-- Memory row `i` of block `t` (blocks of 2000 rows; total by reduction modulo 100000, exact for `t < 50`). -/
def row (t : ℕ) (i : Fin 2000) : Fin 100000 := ⟨(2000 * t + i.val) % 100000, Nat.mod_lt _ (by norm_num)⟩

theorem row_val {t : ℕ} (ht : t < 50) (i : Fin 2000) : (row t i).val = 2000 * t + i.val := by
  show (2000 * t + i.val) % 100000 = _
  have := i.isLt
  exact Nat.mod_eq_of_lt (by omega)

/-- One block of memory rows as a program stages it: 2000 rows of width 64. -/
abbrev SB : Shape := ⟨2, ![2000, 64]⟩

/-- The weight of row `i` of a staged key block `Kb` for query row `r` of normalised queries `Q`. -/
def eBlk (Q : SQ.Idx → ℝ) (Kb : SB.Idx → ℝ) (r : Fin 1024) (i : Fin 2000) : ℝ :=
  Real.exp ((∑ e : Fin 64, Q (ix2 r e) * Kb (ix2 i e))
    * (Real.sqrt (max (∑ e : Fin 64, Kb (ix2 i e) * Kb (ix2 i e)) (guard * guard)))⁻¹)

/-- On block `t` of the keys and the normalised queries, the block weight is the weight. -/
theorem eBlk_eq (Q : SQ.Idx → ℝ) (Kb : SB.Idx → ℝ) (t : ℕ) (hQ : ∀ r d, Q (ix2 r d) = qn L r d)
    (hK : ∀ i e, Kb (ix2 i e) = K (ix2 (row t i) e)) (r : Fin 1024) (i : Fin 2000) :
    eBlk Q Kb r i = wgt L K r (row t i) := by
  simp only [eBlk, wgt, sim, raw, ksq, hQ, hK]

/-- Block `t`'s share of the normaliser. -/
def denBlk (r : Fin 1024) (t : ℕ) : ℝ := ∑ i : Fin 2000, wgt L K r (row t i)
/-- Block `t`'s share of the weighted sum. -/
def numBlk (r : Fin 1024) (c : Fin 64) (t : ℕ) : ℝ := ∑ i : Fin 2000, wgt L K r (row t i) * V (ix2 (row t i) c)
/-- The normaliser accumulated over the first `n` blocks. -/
def denTo (r : Fin 1024) (n : ℕ) : ℝ := ∑ t ∈ Finset.range n, denBlk L K r t
/-- The weighted sum accumulated over the first `n` blocks. -/
def numTo (r : Fin 1024) (c : Fin 64) (n : ℕ) : ℝ := ∑ t ∈ Finset.range n, numBlk L K V r c t

theorem denTo_zero (r : Fin 1024) : denTo L K r 0 = 0 := by simp [denTo]
theorem numTo_zero (r : Fin 1024) (c : Fin 64) : numTo L K V r c 0 = 0 := by simp [numTo]
theorem denTo_succ (r : Fin 1024) (n : ℕ) : denTo L K r (n + 1) = denTo L K r n + denBlk L K r n := by
  simp [denTo, Finset.sum_range_succ]
theorem numTo_succ (r : Fin 1024) (c : Fin 64) (n : ℕ) : numTo L K V r c (n + 1) = numTo L K V r c n + numBlk L K V r c n := by
  simp [numTo, Finset.sum_range_succ]

/-- A sum over the 100000 memory rows is the sum over the 50 blocks of the sums over each block's 2000 rows. -/
theorem sum_blocks (f : Fin 100000 → ℝ) : ∑ t ∈ Finset.range 50, ∑ i : Fin 2000, f (row t i) = ∑ j : Fin 100000, f j := by
  rw [Finset.sum_range (fun t => ∑ i : Fin 2000, f (row t i)),
    ← Fintype.sum_prod_type' (fun (t : Fin 50) (i : Fin 2000) => f (row t.val i))]
  refine Fintype.sum_equiv ((finProdFinEquiv (m := 50) (n := 2000)).trans (finCongr (by norm_num))) _ _ (fun p => ?_)
  congr 1
  apply Fin.ext
  rw [row_val p.1.isLt]
  simp [finProdFinEquiv]
  omega

theorem denTo_full (r : Fin 1024) : denTo L K r 50 = den L K r := sum_blocks (fun j => wgt L K r j)
theorem numTo_full (r : Fin 1024) (c : Fin 64) : numTo L K V r c 50 = num L K V r c :=
  sum_blocks (fun j => wgt L K r j * V (ix2 j c))

theorem wgt_pos (r : Fin 1024) (j : Fin 100000) : 0 < wgt L K r j := Real.exp_pos _

theorem denBlk_pos (r : Fin 1024) (t : ℕ) : 0 < denBlk L K r t :=
  Finset.sum_pos (fun i _ => wgt_pos L K r _) ⟨⟨0, by norm_num⟩, Finset.mem_univ _⟩

theorem denTo_pos (r : Fin 1024) {n : ℕ} (hn : 0 < n) : 0 < denTo L K r n :=
  Finset.sum_pos (fun t _ => denBlk_pos L K r t) (Finset.nonempty_range_iff.mpr hn.ne')

theorem den_pos (r : Fin 1024) : 0 < den L K r :=
  Finset.sum_pos (fun j _ => wgt_pos L K r j) ⟨⟨0, by norm_num⟩, Finset.mem_univ _⟩

/-- Flooring the norm at the guard, or the squared norm at the guard's square: one number. -/
theorem sqrt_max_sq (s : ℝ) : Real.sqrt (max s (guard * guard)) = max (Real.sqrt s) guard := by
  have hm : Monotone Real.sqrt := fun a b h => Real.sqrt_le_sqrt h
  rw [hm.map_max, Real.sqrt_mul_self guard_pos.le]

/-- The similarity as the other program spells it: each key entry divided by the key's floored norm first. -/
theorem sim_eq_div (r : Fin 1024) (j : Fin 100000) :
    ∑ e : Fin 64, qn L r e * (K (ix2 j e) / max (Real.sqrt (ksq K j)) guard) = sim L K r j := by
  unfold sim raw
  rw [sqrt_max_sq, Finset.sum_mul]
  refine Finset.sum_congr rfl fun e _ => ?_
  rw [div_eq_mul_inv, mul_assoc]

/-- The softmax spelling of the output: shift by any real `M`, normalise each weight, then sum against the values. -/
theorem out_eq_softmax (r : Fin 1024) (c : Fin 64) (M : ℝ) :
    ∑ j : Fin 100000, (Real.exp (sim L K r j - M) / ∑ j' : Fin 100000, Real.exp (sim L K r j' - M)) * V (ix2 j c)
      = out L K V r c := by
  have hE : Real.exp M ≠ 0 := (Real.exp_pos M).ne'
  have hS : ∑ j' : Fin 100000, Real.exp (sim L K r j' - M) = (∑ j' : Fin 100000, Real.exp (sim L K r j')) / Real.exp M := by
    rw [Finset.sum_div]; exact Finset.sum_congr rfl fun j _ => Real.exp_sub _ _
  have hpt : ∀ j : Fin 100000,
      (Real.exp (sim L K r j - M) / ((∑ j' : Fin 100000, Real.exp (sim L K r j')) / Real.exp M)) * V (ix2 j c)
        = (Real.exp (sim L K r j) * V (ix2 j c)) / ∑ j' : Fin 100000, Real.exp (sim L K r j') := fun j => by
    rw [Real.exp_sub, div_div_div_cancel_right₀ hE, div_mul_eq_mul_div]
  rw [hS]
  exact (Finset.sum_congr rfl fun j _ => hpt j).trans (Finset.sum_div _ _ _).symm

end Cert.RelMem

end
-- ==== Proof.Blocks.lean ====
/-
  The blocks a grid point reads, and the one block it writes back.

  The query window has a single block, the whole query array, at every point.  The key and value windows step through the
  memory rows: the block at point `t` is rows `2000 t` to `2000 t + 1999`.  The result window has a single block, the whole
  result array, written back once, after the last point: the result array ends holding what the last point leaves.
-/
import proofs.«107597_g84808424227249_cont_9to1c4b_397_3_alg».proof.Proof.Gen.KernelIdeal.Value
import proofs.«107597_g84808424227249_cont_9to1c4b_397_3_alg».proof.Proof.Spec
import Idealize.ShloMosaic.Lib.Pipeline.Value
import Idealize.ShloMosaic.Lib.ValueIdx

noncomputable section

namespace Cert.RelMem.Blocks

open Idealize.ShloMosaic Idealize.ShloMosaic.TcCoe Idealize.SL.Sem Idealize.ShloMosaic.ValueIdx
open Cert.KernelIdeal Cert.KernelIdeal.Gen
open Idealize.ShloMosaic.Pipeline (Dat)

variable {F : FTy → Type} [FloatOps F] [Named F]
variable (m : (ℓ : Loc nD τ sig) → Buf (Elt F) ℓ)

/-- The last grid point. -/
theorem last_lt : 49 < cfg0.N := by rw [show cfg0.N = 50 from N_0]; decide

/-- The index maps of the three input windows, decided once over the grid: the query window never moves, the key and value
    windows are at block row `t`, column block `0`. -/
theorem idx_lat : ∀ t : Fin cfg0.N, win0_0.index t 0 = 0 ∧ win0_0.index t 1 = 0 :=
  (by decide +kernel : ∀ t : Fin grid0.N, win0_0.index t 0 = 0 ∧ win0_0.index t 1 = 0)
theorem idx_key : ∀ t : Fin cfg0.N, win0_1.index t 0 = t.val ∧ win0_1.index t 1 = 0 :=
  (by decide +kernel : ∀ t : Fin grid0.N, win0_1.index t 0 = t.val ∧ win0_1.index t 1 = 0)
theorem idx_val : ∀ t : Fin cfg0.N, win0_2.index t 0 = t.val ∧ win0_2.index t 1 = 0 :=
  (by decide +kernel : ∀ t : Fin grid0.N, win0_2.index t 0 = t.val ∧ win0_2.index t 1 = 0)

/-- The query window's block is the query array. -/
theorem lat_block (c : Dev nD) (t : Fin cfg0.N) (y : S1024x64.Idx) :
    (iblk m c 0 t : Vec F S1024x64 .f32) y = m ((c : Thread nD τ).loc main_arg0) y := by
  have hi := idx_lat t
  unfold iblk
  rw [View.read_apply]
  show V m c main_arg0 _ = m ((c : Thread nD τ).loc main_arg0) _
  unfold V
  congr 1
  funext a
  apply Fin.ext
  match a with
  | ⟨0, _⟩ => show win0_0.index t 0 * 1024 + 1 * (y 0).val = (y 0).val; rw [hi.1]; omega
  | ⟨1, _⟩ => show win0_0.index t 1 * 64 + 1 * (y 1).val = (y 1).val; rw [hi.2]; omega

/-- The key window's block at point `t` is rows `2000 t + i` of the key array. -/
theorem key_block (c : Dev nD) (t : Fin cfg0.N) (i : Fin 2000) (e : Fin 64) :
    (iblk m c 1 t : Vec F S2000x64 .f32) (ix2 i e) = m ((c : Thread nD τ).loc main_arg1) (ix2 (Cert.RelMem.row t.val i) e) := by
  have hi := idx_key t
  have hN : cfg0.N = 50 := N_0
  have ht : t.val < 50 := hN ▸ t.isLt
  have hr := Cert.RelMem.row_val ht i
  unfold iblk
  rw [View.read_apply]
  show V m c main_arg1 _ = m ((c : Thread nD τ).loc main_arg1) _
  unfold V
  congr 1
  funext a
  apply Fin.ext
  match a with
  | ⟨0, _⟩ => show win0_1.index t 0 * 2000 + 1 * i.val = (Cert.RelMem.row t.val i).val; rw [hi.1, hr]; omega
  | ⟨1, _⟩ => show win0_1.index t 1 * 64 + 1 * e.val = e.val; rw [hi.2]; omega

/-- The value window's block at point `t` is rows `2000 t + i` of the value array. -/
theorem val_block (c : Dev nD) (t : Fin cfg0.N) (i : Fin 2000) (e : Fin 64) :
    (iblk m c 2 t : Vec F S2000x64 .f32) (ix2 i e) = m ((c : Thread nD τ).loc main_arg2) (ix2 (Cert.RelMem.row t.val i) e) := by
  have hi := idx_val t
  have hN : cfg0.N = 50 := N_0
  have ht : t.val < 50 := hN ▸ t.isLt
  have hr := Cert.RelMem.row_val ht i
  unfold iblk
  rw [View.read_apply]
  show V m c main_arg2 _ = m ((c : Thread nD τ).loc main_arg2) _
  unfold V
  congr 1
  funext a
  apply Fin.ext
  match a with
  | ⟨0, _⟩ => show win0_2.index t 0 * 2000 + 1 * i.val = (Cert.RelMem.row t.val i).val; rw [hi.1, hr]; omega
  | ⟨1, _⟩ => show win0_2.index t 1 * 64 + 1 * e.val = e.val; rw [hi.2]; omega

/-- What the last point leaves in the result's buffer, as contents of the result array (its one block is the array). -/
abbrev result (c : Dev nD) : Buf (Elt F) ((c : Thread nD τ).loc main_v0) := (outsAt0 m c 49 last_lt).1

/-- The result window never moves either, and its block is never cut short: decided once over the grid. -/
theorem idx_out : ∀ t : Fin cfg0.N, win0_3.index t 0 = 0 ∧ win0_3.index t 1 = 0 :=
  (by decide +kernel : ∀ t : Fin grid0.N, win0_3.index t 0 = 0 ∧ win0_3.index t 1 = 0)
theorem xsize_out : ∀ t : Fin cfg0.N, win0_3.xsize (grid0.coords t) 0 = 1024 ∧ win0_3.xsize (grid0.coords t) 1 = 64 :=
  (by decide +kernel : ∀ t : Fin grid0.N, win0_3.xsize (grid0.coords t) 0 = 1024 ∧ win0_3.xsize (grid0.coords t) 1 = 64)

/-- The offsets of the result window's block are zero on both axes, at every point. -/
theorem off_out (t : Fin cfg0.N) : (fun a => win0_3.index t a * main_v0.ty.shape.size a) = fun _ => 0 :=
  funext fun a => by
    match a with
    | ⟨0, _⟩ => show win0_3.index t 0 * _ = 0; rw [(idx_out t).1, Nat.zero_mul]
    | ⟨1, _⟩ => show win0_3.index t 1 * _ = 0; rw [(idx_out t).2, Nat.zero_mul]

/-- The block at zero offsets of the full extents, read off any array of the result's shape, is that array. -/
theorem cut_eq_read (t : Fin cfg0.N) (G : Vec F S1024x64 .f32) :
    (cfg0.win 3).cut (grid0.coords t) G = ((cfg0.win 3).blk t).view.read (Elt F) G := by
  have hz' := off_out t
  exact (Memref.read_access_unit_zero (Elt F) main_v0 hz' (fun a => by rw [congrFun hz' a]; simp) G).symm

/-- What a write-back at any point `t` would write: the block of what that point leaves. -/
theorem flushed_at (c : Dev nD) (t : Fin cfg0.N) :
    (dats m 0 c).flushed 3 t = ((cfg0.win 3).blk t).view.read (Elt F) (outsAt0 m c t.val t.isLt).1 := by
  show (cfg0.win 3).cut (grid0.coords _) ((dats m 0 c).after 3 _) = _
  rw [after0_3]
  exact cut_eq_read _ _

/-- What point number `n` leaves, when `n` is 49, is the result (the bound's proof does not matter). -/
theorem left_at_last (c : Dev nD) (n : ℕ) (h : n < cfg0.N) (hn : n = 49) : (outsAt0 m c n h).1 = result m c := by
  subst hn; rfl

/-- The one write-back, at the last point, writes what that point leaves. -/
theorem flushed_eq (c : Dev nD) (t : Fin cfg0.N) (hf : (cfg0.win 3).flush t = true) :
    (dats m 0 c).flushed 3 t = ((cfg0.win 3).blk t).view.read (Elt F) (result m c) := by
  have hN : cfg0.N = 50 := N_0
  have h49 : t.val = 49 := by have := (flush0_3 t).mp hf; have := t.isLt; omega
  rw [flushed_at, left_at_last m c t.val t.isLt h49]

/-- The result array after the run is what the last point leaves. -/
theorem final_out (c : Dev nD) : (dats m 0 c).arrAt 3 cfg0.N = result m c := by
  exact (dats m 0 c).arrAt_eq_of_cover 3 (result m c) (flushed_eq m c) fun i =>
    ⟨⟨49, last_lt⟩, (flush0_3 _).mpr rfl, by
      show i ∈ ((View.whole main_v0).slice (win0_3.rect ⟨49, last_lt⟩)).set
      rw [View.set_slice_whole, Rect.mem_set_unit]
      intro a
      have h0 : (i 0 : Nat) < 1024 := (i 0).isLt
      have h1 : (i 1 : Nat) < 64 := (i 1).isLt
      match a with
      | ⟨0, _⟩ =>
        show win0_3.index ⟨49, last_lt⟩ 0 * win0_3.size 0 ≤ (i 0 : Nat)
          ∧ (i 0 : Nat) < win0_3.index ⟨49, last_lt⟩ 0 * win0_3.size 0 + win0_3.xsize (grid0.coords ⟨49, last_lt⟩) 0
        rw [(idx_out _).1, (xsize_out _).1]; omega
      | ⟨1, _⟩ =>
        show win0_3.index ⟨49, last_lt⟩ 1 * win0_3.size 1 ≤ (i 1 : Nat)
          ∧ (i 1 : Nat) < win0_3.index ⟨49, last_lt⟩ 1 * win0_3.size 1 + win0_3.xsize (grid0.coords ⟨49, last_lt⟩) 1
        rw [(idx_out _).2, (xsize_out _).2]; omega⟩

end Cert.RelMem.Blocks

end
-- ==== Proof.EOps.lean ====
/-
  The extended-real operations of the two programs, on finite arguments.

  Every intermediate value of either program is a finite real when the inputs are: a finite sum of finite reals is a finite
  real, the square root of a non-negative real and the inverse square root of a positive real are the real ones, a quotient
  by a non-zero real is the real quotient, the maximum of two reals is their real maximum.  The three single-precision
  patterns the programs spell denote the guard, one and zero; the pattern of negative infinity denotes the bottom element.
-/
import Idealize.ShloMosaic.PureOps.Ideal
import Idealize.ShloMosaic.PureOps.Ideal.Laws
import proofs.«107597_g84808424227249_cont_9to1c4b_397_3_alg».proof.Proof.Spec

noncomputable section

open scoped BigOperators

namespace Cert.RelMem

open Idealize.ShloMosaic

/-- A finite sum of finite reals, summed on the extended reals, is the real sum. -/
theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The pattern of 1e-12 denotes the guard. -/
theorem ofBits_guard : Ideal.ofBits .f32 0x2B8CBCCC#32 = ((guard : ℝ) : EReal) := by
  simp [Ideal.ofBits, Ideal.ieee, -EReal.coe_mul, guard]; norm_num

/-- The pattern of 1.0 denotes one. -/
theorem ofBits_one : Ideal.ofBits .f32 0x3F800000#32 = ((1 : ℝ) : EReal) := by
  simp [Ideal.ofBits, Ideal.ieee, -EReal.coe_mul]; norm_num

/-- The pattern of +0.0 denotes zero. -/
theorem ofBits_zero : Ideal.ofBits .f32 0x00000000#32 = ((0 : ℝ) : EReal) := by
  simp [Ideal.ofBits, Ideal.ieee]

/-- The pattern of negative infinity denotes the bottom element. -/
theorem ofBits_neg_inf : Ideal.ofBits .f32 0xFF800000#32 = (⊥ : EReal) := by
  simp [Ideal.ofBits, Ideal.ieee]

theorem sqrt_coe_of_nonneg {x : ℝ} (h : 0 ≤ x) : Ideal.sqrt ((x : ℝ) : EReal) = ((Real.sqrt x : ℝ) : EReal) := by
  rw [Ideal.sqrt_coe, if_neg (not_lt.mpr h)]

theorem rsqrt_coe_of_pos {x : ℝ} (h : 0 < x) : Ideal.rsqrt ((x : ℝ) : EReal) = (((Real.sqrt x)⁻¹ : ℝ) : EReal) := by
  rw [Ideal.rsqrt_coe, if_neg (not_lt.mpr h.le), if_neg h.ne']

theorem div_coe_coe (x : ℝ) {y : ℝ} (h : y ≠ 0) : Ideal.div ((x : ℝ) : EReal) ((y : ℝ) : EReal) = ((x / y : ℝ) : EReal) := by
  rw [Ideal.div_coe h, ← EReal.coe_mul]
  congr 1
  ring

theorem max_coe (x y : ℝ) : max ((x : ℝ) : EReal) ((y : ℝ) : EReal) = ((max x y : ℝ) : EReal) := (EReal.coe_strictMono.monotone.map_max (a := x) (b := y)).symm

theorem exp_coe (x : ℝ) : Ideal.exp ((x : ℝ) : EReal) = ((Real.exp x : ℝ) : EReal) := Ideal.exp_coe x

end Cert.RelMem

end
-- ==== Proof.KernelPay.lean ====
/-
  The kernel body's arithmetic, read at an index on finite arguments.

  The body computes seven values: the normalised queries (stored once, at the first grid point); two zero fills; the
  block of weights `e` of the staged key block for every query row; the running normaliser plus the row sums of `e`; the
  running weighted sum plus `e` times the staged value block; and, at the last point, the weighted sum divided by the
  normaliser.  On finite arguments each is the finite real the formulas of the specification name.
-/
import proofs.«107597_g84808424227249_cont_9to1c4b_397_3_alg».proof.Proof.Gen.KernelIdeal.Skeleton
import proofs.«107597_g84808424227249_cont_9to1c4b_397_3_alg».proof.Proof.EOps
import Idealize.ShloMosaic.PureOps.IdealRules
import Idealize.ShloMosaic.Lib.ValueIdx
import Idealize.ShloMosaic.Lib.ValueLayout
import Idealize.ShloMosaic.Lib.Pipeline.Value

noncomputable section

open scoped BigOperators

namespace Cert.RelMem.Ker

open Idealize.ShloMosaic Idealize.ShloMosaic.ValueIdx Cert.KernelIdeal Cert.KernelIdeal.Gen Cert.RelMem

/-! ## Two column forms of layout operations -/

/-- A vector of length `a` viewed as a column `[a, 1]` reads, at `(p, u)`, the vector at `p`. -/
private theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` columns reads, at `(p, c)`, the column at `p`. -/
private theorem broadcastTo_a1_ab_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ =>
    show 0 = if (1 : ℕ) = 1 then 0 else c.val
    rw [if_pos rfl]

/-! ## Sums along a row -/

/-- The sum along the 64 columns of a `[1024, 64]` vector, read at row `r`. -/
private theorem rowSum64 (src : FVec Ideal S1024x64 .f32) (hφ : FKind.Formats .f32)
    (hacc : (0x00000000#32 : BitVec 32) = 0x00000000#32) (r : Fin 1024) :
    multiReduction .add [1] S1024 src 0x00000000#32 reduces_S1024x64_S1024 hφ hacc (ix1 r)
      = ∑ e : Fin 64, src (ix2 r e) := by
  refine (Ideal.reduceAdd_single reduces_S1024x64_S1024 src (ix1 r)).trans ?_
  refine Finset.sum_congr rfl fun k _ => congrArg src (funext fun a => Fin.ext ?_)
  match a with
  | ⟨0, _⟩ => rfl
  | ⟨1, _⟩ => rfl

/-- The sum along the 2000 columns of a `[1024, 2000]` vector, read at row `r`. -/
private theorem rowSum2000 (src : FVec Ideal S1024x2000 .f32) (hφ : FKind.Formats .f32)
    (hacc : (0x00000000#32 : BitVec 32) = 0x00000000#32) (r : Fin 1024) :
    multiReduction .add [1] S1024 src 0x00000000#32 reduces_S1024x2000_S1024 hφ hacc (ix1 r)
      = ∑ i : Fin 2000, src (ix2 r i) := by
  refine (Ideal.reduceAdd_single reduces_S1024x2000_S1024 src (ix1 r)).trans ?_
  refine Finset.sum_congr rfl fun k _ => congrArg src (funext fun a => Fin.ext ?_)
  match a with
  | ⟨0, _⟩ => rfl
  | ⟨1, _⟩ => rfl

/-- A sum of squares of reals is not negative. -/
private theorem sum_mul_self_nonneg {ι : Type*} (s : Finset ι) (f : ι → ℝ) : 0 ≤ ∑ i ∈ s, f i * f i :=
  Finset.sum_nonneg fun i _ => mul_self_nonneg (f i)

/-! ## The guard's square, the normalised queries, the two zero fills -/

/-- The named constant of the kernel's guard on squared norms denotes the guard's square. -/
theorem named_guard_sq :
    Named.named (F := Ideal) Cert.KernelIdeal.κ "eps_sq" (φ := .f32) 0x179ABE15#32 = ((guard * guard : ℝ) : EReal) := by
  refine (IdealRules.named_const.ideal_named_scalar _ _ _ _ rfl).trans ?_
  rw [guard_sq]

/-- The normalised queries. -/
theorem pay1_apply (lat : Vec Ideal S1024x64 .f32) (L : SQ.Idx → ℝ) (h : ∀ i, lat i = ((L i : ℝ) : EReal))
    (r : Fin 1024) (d : Fin 64) : k0_pay1 (F := Ideal) lat (ix2 r d) = ((qn L r d : ℝ) : EReal) := by
  unfold k0_pay1
  dsimp only
  rw [shapeCast_self, divf_apply, broadcastTo_a1_ab_apply (by decide), maximumf_apply]
  show Ideal.div (lat (ix2 r d))
      (max (Ideal.sqrt (shapeCast S1024x1 _ shapeCasts_S1024_S1024x1 (ix2 r (0 : Fin 1)))) (Ideal.ofBits .f32 0x2B8CBCCC#32)) = _
  rw [shapeCast_a_a1_apply, rowSum64]
  simp only [mulf_apply, h, ← EReal.coe_mul]
  rw [← coe_sum, sqrt_coe_of_nonneg (sum_mul_self_nonneg _ _), ofBits_guard, max_coe,
    div_coe_coe _ (lt_of_lt_of_le guard_pos (le_max_right _ _)).ne']
  rfl

/-- The zero fill of the normaliser. -/
theorem pay2_apply (i : S1024x1.Idx) : (k0_pay2 (F := Ideal)) i = ((0 : ℝ) : EReal) := by
  unfold k0_pay2
  rw [shapeCast_self]
  exact ofBits_zero

/-- The zero fill of the weighted sum. -/
theorem pay3_apply (i : S1024x64.Idx) : (k0_pay3 (F := Ideal)) i = ((0 : ℝ) : EReal) := by
  unfold k0_pay3
  exact ofBits_zero

/-! ## The three products of the body, read at an index

Each product contracts one axis.  For each the operand indices at a result index and a contraction position are read
off axis by axis; the sum over the one-axis contraction shape is then re-indexed by that axis's coordinate. -/

/-! The row of ones times the squared key block, contracted over the width. -/

private theorem lhsOnes_0 (j : S1x2000.Idx) (q : dot_S1x64_S2000x64_S1x2000_1_1_0_0_n_n.contr.Idx) :
    (dot_S1x64_S2000x64_S1x2000_1_1_0_0_n_n.lhsIdx j q 0).val = (j 0).val := by
  unfold DotDims.lhsIdx
  rw [dif_neg (show ¬(0 : Fin S1x64.rank) ∈ dot_S1x64_S2000x64_S1x2000_1_1_0_0_n_n.lhsBatch by decide), dif_pos (show (0 : Fin S1x64.rank) ∈ dot_S1x64_S2000x64_S1x2000_1_1_0_0_n_n.lhsNonContracting by decide)]
  rfl
private theorem lhsOnes_1 (j : S1x2000.Idx) (q : dot_S1x64_S2000x64_S1x2000_1_1_0_0_n_n.contr.Idx) :
    (dot_S1x64_S2000x64_S1x2000_1_1_0_0_n_n.lhsIdx j q 1).val = (q ⟨0, by decide⟩).val :=
  dot_S1x64_S2000x64_S1x2000_1_1_0_0_n_n.lhsIdx_val_of_single rfl j q
private theorem rhsOnes_0 (j : S1x2000.Idx) (q : dot_S1x64_S2000x64_S1x2000_1_1_0_0_n_n.contr.Idx) :
    (dot_S1x64_S2000x64_S1x2000_1_1_0_0_n_n.rhsIdx j q 0).val = (j 1).val := by
  unfold DotDims.rhsIdx
  rw [dif_neg (show ¬(0 : Fin S2000x64.rank) ∈ dot_S1x64_S2000x64_S1x2000_1_1_0_0_n_n.rhsBatch by decide), dif_pos (show (0 : Fin S2000x64.rank) ∈ dot_S1x64_S2000x64_S1x2000_1_1_0_0_n_n.rhsNonContracting by decide)]
  rfl
private theorem rhsOnes_1 (j : S1x2000.Idx) (q : dot_S1x64_S2000x64_S1x2000_1_1_0_0_n_n.contr.Idx) :
    (dot_S1x64_S2000x64_S1x2000_1_1_0_0_n_n.rhsIdx j q 1).val = (q ⟨0, by decide⟩).val :=
  dot_S1x64_S2000x64_S1x2000_1_1_0_0_n_n.rhsIdx_val_of_single rfl j q

private theorem matOnes_apply (a : FVec Ideal S1x64 .f32) (b : FVec Ideal S2000x64 .f32) (u : Fin 1) (i : Fin 2000) :
    matmul dot_S1x64_S2000x64_S1x2000_1_1_0_0_n_n none a b (constant (F := Ideal) S1x2000 .f32 0x00000000#32) (ix2 u i)
      = ∑ e : Fin 64, a (ix2 u e) * b (ix2 i e) := by
  simp only [matmul]
  rw [Ideal.matmul_constant_zero_apply, ← Equiv.sum_comp (contrEquiv1 dot_S1x64_S2000x64_S1x2000_1_1_0_0_n_n 64 rfl rfl).symm]
  refine Finset.sum_congr rfl fun k _ => ?_
  have hk := contrEquiv1_symm_val dot_S1x64_S2000x64_S1x2000_1_1_0_0_n_n 64 rfl rfl k
  have el : dot_S1x64_S2000x64_S1x2000_1_1_0_0_n_n.lhsIdx (ix2 u i) ((contrEquiv1 dot_S1x64_S2000x64_S1x2000_1_1_0_0_n_n 64 rfl rfl).symm k) = ix2 u k := funext fun x => Fin.ext (by
    match x with
    | ⟨0, _⟩ => exact lhsOnes_0 _ _
    | ⟨1, _⟩ => exact (lhsOnes_1 _ _).trans hk)
  have er : dot_S1x64_S2000x64_S1x2000_1_1_0_0_n_n.rhsIdx (ix2 u i) ((contrEquiv1 dot_S1x64_S2000x64_S1x2000_1_1_0_0_n_n 64 rfl rfl).symm k) = ix2 i k := funext fun x => Fin.ext (by
    match x with
    | ⟨0, _⟩ => exact rhsOnes_0 _ _
    | ⟨1, _⟩ => exact (rhsOnes_1 _ _).trans hk)
  rw [el, er]

/-! The queries times the key block, contracted over the width. -/

private theorem lhsQK_0 (j : S1024x2000.Idx) (q : dot_S1024x64_S2000x64_S1024x2000_1_1_0_0_n_n.contr.Idx) :
    (dot_S1024x64_S2000x64_S1024x2000_1_1_0_0_n_n.lhsIdx j q 0).val = (j 0).val := by
  unfold DotDims.lhsIdx
  rw [dif_neg (show ¬(0 : Fin S1024x64.rank) ∈ dot_S1024x64_S2000x64_S1024x2000_1_1_0_0_n_n.lhsBatch by decide), dif_pos (show (0 : Fin S1024x64.rank) ∈ dot_S1024x64_S2000x64_S1024x2000_1_1_0_0_n_n.lhsNonContracting by decide)]
  rfl
private theorem lhsQK_1 (j : S1024x2000.Idx) (q : dot_S1024x64_S2000x64_S1024x2000_1_1_0_0_n_n.contr.Idx) :
    (dot_S1024x64_S2000x64_S1024x2000_1_1_0_0_n_n.lhsIdx j q 1).val = (q ⟨0, by decide⟩).val :=
  dot_S1024x64_S2000x64_S1024x2000_1_1_0_0_n_n.lhsIdx_val_of_single rfl j q
private theorem rhsQK_0 (j : S1024x2000.Idx) (q : dot_S1024x64_S2000x64_S1024x2000_1_1_0_0_n_n.contr.Idx) :
    (dot_S1024x64_S2000x64_S1024x2000_1_1_0_0_n_n.rhsIdx j q 0).val = (j 1).val := by
  unfold DotDims.rhsIdx
  rw [dif_neg (show ¬(0 : Fin S2000x64.rank) ∈ dot_S1024x64_S2000x64_S1024x2000_1_1_0_0_n_n.rhsBatch by decide), dif_pos (show (0 : Fin S2000x64.rank) ∈ dot_S1024x64_S2000x64_S1024x2000_1_1_0_0_n_n.rhsNonContracting by decide)]
  rfl
private theorem rhsQK_1 (j : S1024x2000.Idx) (q : dot_S1024x64_S2000x64_S1024x2000_1_1_0_0_n_n.contr.Idx) :
    (dot_S1024x64_S2000x64_S1024x2000_1_1_0_0_n_n.rhsIdx j q 1).val = (q ⟨0, by decide⟩).val :=
  dot_S1024x64_S2000x64_S1024x2000_1_1_0_0_n_n.rhsIdx_val_of_single rfl j q

private theorem matQK_apply (a : FVec Ideal S1024x64 .f32) (b : FVec Ideal S2000x64 .f32) (r : Fin 1024) (i : Fin 2000) :
    matmul dot_S1024x64_S2000x64_S1024x2000_1_1_0_0_n_n none a b (constant (F := Ideal) S1024x2000 .f32 0x00000000#32) (ix2 r i)
      = ∑ e : Fin 64, a (ix2 r e) * b (ix2 i e) := by
  simp only [matmul]
  rw [Ideal.matmul_constant_zero_apply, ← Equiv.sum_comp (contrEquiv1 dot_S1024x64_S2000x64_S1024x2000_1_1_0_0_n_n 64 rfl rfl).symm]
  refine Finset.sum_congr rfl fun k _ => ?_
  have hk := contrEquiv1_symm_val dot_S1024x64_S2000x64_S1024x2000_1_1_0_0_n_n 64 rfl rfl k
  have el : dot_S1024x64_S2000x64_S1024x2000_1_1_0_0_n_n.lhsIdx (ix2 r i) ((contrEquiv1 dot_S1024x64_S2000x64_S1024x2000_1_1_0_0_n_n 64 rfl rfl).symm k) = ix2 r k := funext fun x => Fin.ext (by
    match x with
    | ⟨0, _⟩ => exact lhsQK_0 _ _
    | ⟨1, _⟩ => exact (lhsQK_1 _ _).trans hk)
  have er : dot_S1024x64_S2000x64_S1024x2000_1_1_0_0_n_n.rhsIdx (ix2 r i) ((contrEquiv1 dot_S1024x64_S2000x64_S1024x2000_1_1_0_0_n_n 64 rfl rfl).symm k) = ix2 i k := funext fun x => Fin.ext (by
    match x with
    | ⟨0, _⟩ => exact rhsQK_0 _ _
    | ⟨1, _⟩ => exact (rhsQK_1 _ _).trans hk)
  rw [el, er]

/-! The weights times the value block, contracted over the block's rows. -/

private theorem lhsEV_0 (j : S1024x64.Idx) (q : dot_S1024x2000_S2000x64_S1024x64_1_0_0_1_n_n.contr.Idx) :
    (dot_S1024x2000_S2000x64_S1024x64_1_0_0_1_n_n.lhsIdx j q 0).val = (j 0).val := by
  unfold DotDims.lhsIdx
  rw [dif_neg (show ¬(0 : Fin S1024x2000.rank) ∈ dot_S1024x2000_S2000x64_S1024x64_1_0_0_1_n_n.lhsBatch by decide), dif_pos (show (0 : Fin S1024x2000.rank) ∈ dot_S1024x2000_S2000x64_S1024x64_1_0_0_1_n_n.lhsNonContracting by decide)]
  rfl
private theorem lhsEV_1 (j : S1024x64.Idx) (q : dot_S1024x2000_S2000x64_S1024x64_1_0_0_1_n_n.contr.Idx) :
    (dot_S1024x2000_S2000x64_S1024x64_1_0_0_1_n_n.lhsIdx j q 1).val = (q ⟨0, by decide⟩).val :=
  dot_S1024x2000_S2000x64_S1024x64_1_0_0_1_n_n.lhsIdx_val_of_single rfl j q
private theorem rhsEV_0 (j : S1024x64.Idx) (q : dot_S1024x2000_S2000x64_S1024x64_1_0_0_1_n_n.contr.Idx) :
    (dot_S1024x2000_S2000x64_S1024x64_1_0_0_1_n_n.rhsIdx j q 0).val = (q ⟨0, by decide⟩).val :=
  dot_S1024x2000_S2000x64_S1024x64_1_0_0_1_n_n.rhsIdx_val_of_single rfl j q
private theorem rhsEV_1 (j : S1024x64.Idx) (q : dot_S1024x2000_S2000x64_S1024x64_1_0_0_1_n_n.contr.Idx) :
    (dot_S1024x2000_S2000x64_S1024x64_1_0_0_1_n_n.rhsIdx j q 1).val = (j 1).val := by
  unfold DotDims.rhsIdx
  rw [dif_neg (show ¬(1 : Fin S2000x64.rank) ∈ dot_S1024x2000_S2000x64_S1024x64_1_0_0_1_n_n.rhsBatch by decide), dif_pos (show (1 : Fin S2000x64.rank) ∈ dot_S1024x2000_S2000x64_S1024x64_1_0_0_1_n_n.rhsNonContracting by decide)]
  rfl

private theorem matEV_apply (a : FVec Ideal S1024x2000 .f32) (b : FVec Ideal S2000x64 .f32) (r : Fin 1024) (c : Fin 64) :
    matmul dot_S1024x2000_S2000x64_S1024x64_1_0_0_1_n_n none a b (constant (F := Ideal) S1024x64 .f32 0x00000000#32) (ix2 r c)
      = ∑ i : Fin 2000, a (ix2 r i) * b (ix2 i c) := by
  simp only [matmul]
  rw [Ideal.matmul_constant_zero_apply, ← Equiv.sum_comp (contrEquiv1 dot_S1024x2000_S2000x64_S1024x64_1_0_0_1_n_n 2000 rfl rfl).symm]
  refine Finset.sum_congr rfl fun k _ => ?_
  have hk := contrEquiv1_symm_val dot_S1024x2000_S2000x64_S1024x64_1_0_0_1_n_n 2000 rfl rfl k
  have el : dot_S1024x2000_S2000x64_S1024x64_1_0_0_1_n_n.lhsIdx (ix2 r c) ((contrEquiv1 dot_S1024x2000_S2000x64_S1024x64_1_0_0_1_n_n 2000 rfl rfl).symm k) = ix2 r k := funext fun x => Fin.ext (by
    match x with
    | ⟨0, _⟩ => exact lhsEV_0 _ _
    | ⟨1, _⟩ => exact (lhsEV_1 _ _).trans hk)
  have er : dot_S1024x2000_S2000x64_S1024x64_1_0_0_1_n_n.rhsIdx (ix2 r c) ((contrEquiv1 dot_S1024x2000_S2000x64_S1024x64_1_0_0_1_n_n 2000 rfl rfl).symm k) = ix2 k c := funext fun x => Fin.ext (by
    match x with
    | ⟨0, _⟩ => exact (rhsEV_0 _ _).trans hk
    | ⟨1, _⟩ => exact rhsEV_1 _ _)
  rw [el, er]

/-! ## The block of weights -/

/-- The block of weights. -/
theorem pay4_apply (kb : Vec Ideal S2000x64 .f32) (q : Vec Ideal S1024x64 .f32) (Kb : SB.Idx → ℝ) (Q : SQ.Idx → ℝ)
    (hk : ∀ i, kb i = ((Kb i : ℝ) : EReal)) (hq : ∀ i, q i = ((Q i : ℝ) : EReal)) (r : Fin 1024) (i : Fin 2000) :
    k0_pay4 (F := Ideal) kb q (ix2 r i) = ((eBlk Q Kb r i : ℝ) : EReal) := by
  unfold k0_pay4
  show Ideal.exp (mulf (matmul dot_S1024x64_S2000x64_S1024x2000_1_1_0_0_n_n none q kb (constant (F := Ideal) S1024x2000 .f32 0x00000000#32))
      (broadcastTo S1024x2000 _ broadcasts_S1x2000_S1024x2000) (ix2 r i)) = _
  rw [mulf_apply, matQK_apply, broadcastTo_1b_ab_apply]
  show Ideal.exp (_ * Ideal.rsqrt (max
      (matmul dot_S1x64_S2000x64_S1x2000_1_1_0_0_n_n none _ _ (constant (F := Ideal) S1x2000 .f32 0x00000000#32) (ix2 (0 : Fin 1) i))
      (Named.named (F := Ideal) Cert.KernelIdeal.κ "eps_sq" (φ := .f32) 0x179ABE15#32))) = _
  rw [matOnes_apply, named_guard_sq]
  simp only [broadcast_apply, mulf_apply, Ideal.ofBits_def, ofBits_one, hk, hq, ← EReal.coe_mul]
  rw [← coe_sum, ← coe_sum, max_coe,
    rsqrt_coe_of_pos (lt_of_lt_of_le (mul_pos guard_pos guard_pos) (le_max_right _ _)), ← EReal.coe_mul, exp_coe]
  unfold eBlk
  simp only [one_mul]

/-! ## The running normaliser, the running weighted sum, the final quotient -/

/-- The normaliser after the block: what it held plus the row sum of the block's weights. -/
theorem pay5_apply (kb : Vec Ideal S2000x64 .f32) (q : Vec Ideal S1024x64 .f32) (l : Vec Ideal S1024x1 .f32)
    (Kb : SB.Idx → ℝ) (Q : SQ.Idx → ℝ) (Lr : Fin 1024 → ℝ)
    (hk : ∀ i, kb i = ((Kb i : ℝ) : EReal)) (hq : ∀ i, q i = ((Q i : ℝ) : EReal))
    (hl : ∀ r : Fin 1024, l (ix2 r 0) = ((Lr r : ℝ) : EReal)) (r : Fin 1024) :
    k0_pay5 (F := Ideal) kb q l (ix2 r 0) = ((Lr r + ∑ i : Fin 2000, eBlk Q Kb r i : ℝ) : EReal) := by
  unfold k0_pay5
  rw [shapeCast_self, addf_apply, hl r, shapeCast_a_a1_apply, rowSum2000]
  simp only [pay4_apply kb q Kb Q hk hq]
  rw [← coe_sum, ← EReal.coe_add]

/-- The weighted sum after the block: what it held plus the block's weights times the staged values. -/
theorem pay6_apply (kb : Vec Ideal S2000x64 .f32) (q : Vec Ideal S1024x64 .f32) (o : Vec Ideal S1024x64 .f32)
    (vb : Vec Ideal S2000x64 .f32) (Kb : SB.Idx → ℝ) (Q : SQ.Idx → ℝ) (O : SQ.Idx → ℝ) (Vb : SB.Idx → ℝ)
    (hk : ∀ i, kb i = ((Kb i : ℝ) : EReal)) (hq : ∀ i, q i = ((Q i : ℝ) : EReal))
    (ho : ∀ i, o i = ((O i : ℝ) : EReal)) (hv : ∀ i, vb i = ((Vb i : ℝ) : EReal)) (r : Fin 1024) (c : Fin 64) :
    k0_pay6 (F := Ideal) kb q o vb (ix2 r c)
      = ((O (ix2 r c) + ∑ i : Fin 2000, eBlk Q Kb r i * Vb (ix2 i c) : ℝ) : EReal) := by
  unfold k0_pay6
  rw [addf_apply, shapeCast_self, ho, matEV_apply]
  simp only [pay4_apply kb q Kb Q hk hq, hv, ← EReal.coe_mul]
  rw [← coe_sum, ← EReal.coe_add]

/-- The final division by a non-zero normaliser. -/
theorem pay7_apply (o : Vec Ideal S1024x64 .f32) (l : Vec Ideal S1024x1 .f32) (O : SQ.Idx → ℝ) (Lr : Fin 1024 → ℝ)
    (ho : ∀ i, o i = ((O i : ℝ) : EReal)) (hl : ∀ r : Fin 1024, l (ix2 r 0) = ((Lr r : ℝ) : EReal))
    (hne : ∀ r, Lr r ≠ 0) (r : Fin 1024) (c : Fin 64) :
    k0_pay7 (F := Ideal) o l (ix2 r c) = ((O (ix2 r c) / Lr r : ℝ) : EReal) := by
  unfold k0_pay7
  rw [divf_apply, shapeCast_self, broadcastTo_a1_ab_apply (by decide), ho, hl r, div_coe_coe _ (hne r)]

end Cert.RelMem.Ker

end
-- ==== Proof.KernelRun.lean ====
/-
  The kernel's result array is the attention output.

  After grid point `n` the three buffers the kernel carries hold: the normalised queries; the normaliser accumulated over
  blocks `0 … n`; and the weighted sum of values accumulated over blocks `0 … n` — except after the last point, where the
  weighted sum has been divided by the normaliser and the buffer holds the attention output.  By induction on the point:
  the first point stores the queries and starts both accumulators from zero, a middle point adds its block's share to both,
  the last point adds its share and divides (the normaliser is a sum of exponentials, so it is positive).  The one
  write-back, after the last point, puts that buffer in the result array.
-/
import proofs.«107597_g84808424227249_cont_9to1c4b_397_3_alg».proof.Proof.Pieces
import proofs.«107597_g84808424227249_cont_9to1c4b_397_3_alg».proof.Proof.Blocks
import proofs.«107597_g84808424227249_cont_9to1c4b_397_3_alg».proof.Proof.KernelPay
import proofs.«107597_g84808424227249_cont_9to1c4b_397_3_alg».proof.Proof.Gen.KernelIdeal.Value

noncomputable section

open scoped BigOperators

namespace Cert.RelMem.Run

open Idealize.ShloMosaic Idealize.ShloMosaic.TcCoe Idealize.SL.Sem Idealize.ShloMosaic.ValueIdx
open Cert.KernelIdeal Cert.KernelIdeal.Gen Cert.RelMem

/-! ## One point, as the body's arithmetic (any float instance) -/

section Steps

variable {F : FTy → Type} [FloatOps F] [Named F]
variable (m : (ℓ : Loc nD τ sig) → Buf (Elt F) ℓ)

/-- The first point: the queries are normalised and stored, both accumulators start from zero and take the first block. -/
theorem step_A (c : Dev nD) (t : Fin cfg0.N) (h0 : t.val % 50 = 0) (h1 : ¬t.val % 50 = 49) :
    outsAt0 m c t.val t.isLt
      = (k0_pay6 (iblk m c 1 t) (k0_pay1 (iblk m c 0 t)) (k0_pay3 (F := F)) (iblk m c 2 t),
         k0_pay1 (iblk m c 0 t),
         k0_pay5 (iblk m c 1 t) (k0_pay1 (iblk m c 0 t)) (k0_pay2 (F := F))) := by
  rw [outsAt0_A m c t h0 h1, Pieces.out_A, Pieces.qry_A, Pieces.nrm_A]

/-- A middle point: both accumulators take the block, over what the point before left. -/
theorem step_B (c : Dev nD) (t : Fin cfg0.N) (h0 : ¬t.val % 50 = 0) (h1 : ¬t.val % 50 = 49) :
    outsAt0 m c t.val t.isLt
      = (k0_pay6 (iblk m c 1 t) (outsAt0 m c (t.val - 1) (Nat.lt_of_le_of_lt (Nat.sub_le _ _) t.isLt)).2.1
            (outsAt0 m c (t.val - 1) (Nat.lt_of_le_of_lt (Nat.sub_le _ _) t.isLt)).1 (iblk m c 2 t),
         (outsAt0 m c (t.val - 1) (Nat.lt_of_le_of_lt (Nat.sub_le _ _) t.isLt)).2.1,
         k0_pay5 (iblk m c 1 t) (outsAt0 m c (t.val - 1) (Nat.lt_of_le_of_lt (Nat.sub_le _ _) t.isLt)).2.1
            (outsAt0 m c (t.val - 1) (Nat.lt_of_le_of_lt (Nat.sub_le _ _) t.isLt)).2.2) := by
  rw [outsAt0_B m c t h0 h1, Pieces.out_B, Pieces.nrm_B]
  rfl

/-- The last point: both accumulators take the block, then the weighted sum is divided by the normaliser. -/
theorem step_C (c : Dev nD) (t : Fin cfg0.N) (h0 : ¬t.val % 50 = 0) (h1 : t.val % 50 = 49) :
    outsAt0 m c t.val t.isLt
      = (k0_pay7
            (k0_pay6 (iblk m c 1 t) (outsAt0 m c (t.val - 1) (Nat.lt_of_le_of_lt (Nat.sub_le _ _) t.isLt)).2.1
              (outsAt0 m c (t.val - 1) (Nat.lt_of_le_of_lt (Nat.sub_le _ _) t.isLt)).1 (iblk m c 2 t))
            (k0_pay5 (iblk m c 1 t) (outsAt0 m c (t.val - 1) (Nat.lt_of_le_of_lt (Nat.sub_le _ _) t.isLt)).2.1
              (outsAt0 m c (t.val - 1) (Nat.lt_of_le_of_lt (Nat.sub_le _ _) t.isLt)).2.2),
         (outsAt0 m c (t.val - 1) (Nat.lt_of_le_of_lt (Nat.sub_le _ _) t.isLt)).2.1,
         k0_pay5 (iblk m c 1 t) (outsAt0 m c (t.val - 1) (Nat.lt_of_le_of_lt (Nat.sub_le _ _) t.isLt)).2.1
            (outsAt0 m c (t.val - 1) (Nat.lt_of_le_of_lt (Nat.sub_le _ _) t.isLt)).2.2) := by
  rw [outsAt0_C m c t h0 h1, Pieces.out_C, Pieces.nrm_C]
  rfl

end Steps

/-! ## The accumulators over the reals -/

section Reals

variable (L : SQ.Idx → ℝ) (K V : SM.Idx → ℝ)

/-- The normalised queries as an array. -/
def Qarr : SQ.Idx → ℝ := fun y => qn L (y 0) (y 1)
/-- Block `t` of a memory array. -/
def blk (A : SM.Idx → ℝ) (t : ℕ) : SB.Idx → ℝ := fun y => A (ix2 (row t (y 0)) (y 1))

/-- Adding block `t`'s row sum of weights to the normaliser over blocks `0 … t-1` gives it over `0 … t`. -/
theorem den_step (t : ℕ) (r : Fin 1024) :
    denTo L K r t + ∑ i : Fin 2000, eBlk (Qarr L) (blk K t) r i = denTo L K r (t + 1) := by
  rw [denTo_succ]
  congr 1

/-- Adding block `t`'s weighted values to the weighted sum over blocks `0 … t-1` gives it over `0 … t`. -/
theorem num_step (t : ℕ) (r : Fin 1024) (c : Fin 64) :
    numTo L K V r c t + ∑ i : Fin 2000, eBlk (Qarr L) (blk K t) r i * blk V t (ix2 i c) = numTo L K V r c (t + 1) := by
  rw [numTo_succ]
  congr 1

end Reals

/-! ## The invariant, at the exact instance -/

section Ideal

variable (m : (ℓ : Loc nD τ sig) → Buf (Elt Ideal) ℓ) (ρ : Dev nD → PrngReg)
variable (L : SQ.Idx → ℝ) (K V : SM.Idx → ℝ)

/-- What the three carried buffers hold after point `n`. -/
structure Inv (c : Dev nD) (n : ℕ) (h : n < cfg0.N) : Prop where
  qry : ∀ i : S1024x64.Idx, (outsAt0 m c n h).2.1 i = ((Qarr L i : ℝ) : EReal)
  nrm : ∀ r : Fin 1024, (outsAt0 m c n h).2.2 (ix2 r 0) = ((denTo L K r (n + 1) : ℝ) : EReal)
  acc : n < 49 → ∀ i : S1024x64.Idx, (outsAt0 m c n h).1 i = ((numTo L K V (i 0) (i 1) (n + 1) : ℝ) : EReal)
  fin : n = 49 → ∀ (r : Fin 1024) (cc : Fin 64), (outsAt0 m c n h).1 (ix2 r cc) = ((out L K V r cc : ℝ) : EReal)

variable (c : Dev nD)
variable (hL : ∀ i : S1024x64.Idx, (m ((c : Thread nD τ).loc main_arg0) : Vec Ideal S1024x64 .f32) i = ((L i : ℝ) : EReal))
variable (hK : ∀ i : S100000x64.Idx, (m ((c : Thread nD τ).loc main_arg1) : Vec Ideal S100000x64 .f32) i = ((K i : ℝ) : EReal))
variable (hV : ∀ i : S100000x64.Idx, (m ((c : Thread nD τ).loc main_arg2) : Vec Ideal S100000x64 .f32) i = ((V i : ℝ) : EReal))

include hL in
theorem lat_real (t : Fin cfg0.N) (i : S1024x64.Idx) : (iblk m c 0 t : Vec Ideal S1024x64 .f32) i = ((L i : ℝ) : EReal) :=
  (Blocks.lat_block m c t i).trans (hL i)

include hK in
theorem key_real (t : Fin cfg0.N) (y : S2000x64.Idx) : (iblk m c 1 t : Vec Ideal S2000x64 .f32) y = ((blk K t.val y : ℝ) : EReal) := by
  obtain ⟨i, e, rfl⟩ : ∃ (i : Fin 2000) (e : Fin 64), y = ix2 i e := ⟨y 0, y 1, eq_ix2 y⟩
  exact (Blocks.key_block m c t i e).trans (hK _)

include hV in
theorem val_real (t : Fin cfg0.N) (y : S2000x64.Idx) : (iblk m c 2 t : Vec Ideal S2000x64 .f32) y = ((blk V t.val y : ℝ) : EReal) := by
  obtain ⟨i, e, rfl⟩ : ∃ (i : Fin 2000) (e : Fin 64), y = ix2 i e := ⟨y 0, y 1, eq_ix2 y⟩
  exact (Blocks.val_block m c t i e).trans (hV _)

include hL in
/-- The normalised queries the first point stores. -/
theorem qry_real (t : Fin cfg0.N) (i : S1024x64.Idx) :
    k0_pay1 (F := Ideal) (iblk m c 0 t) i = ((Qarr L i : ℝ) : EReal) := by
  obtain ⟨r, d, rfl⟩ : ∃ (r : Fin 1024) (d : Fin 64), i = ix2 r d := ⟨i 0, i 1, eq_ix2 i⟩
  exact Ker.pay1_apply (iblk m c 0 t) L (lat_real m L c hL t) r d

include hL hK hV in
/-- After the first point. -/
theorem inv_zero (h : 0 < cfg0.N) : Inv m L K V c 0 h := by
  have e := step_A m c ⟨0, h⟩ rfl (by show ¬(0 % 50 = 49); decide)
  refine ⟨fun i => ?_, fun r => ?_, fun _ i => ?_, fun h49 => absurd h49 (by decide)⟩
  · rw [show outsAt0 m c 0 h = _ from e]
    exact qry_real m L c hL ⟨0, h⟩ i
  · rw [show outsAt0 m c 0 h = _ from e]
    refine (Ker.pay5_apply _ _ _ (blk K 0) (Qarr L) (fun _ => 0) (key_real m K c hK ⟨0, h⟩) (qry_real m L c hL ⟨0, h⟩)
      (fun r => Ker.pay2_apply _) r).trans ?_
    rw [← den_step L K 0 r, denTo_zero]
  · obtain ⟨r, cc, rfl⟩ : ∃ (r : Fin 1024) (cc : Fin 64), i = ix2 r cc := ⟨i 0, i 1, eq_ix2 i⟩
    rw [show outsAt0 m c 0 h = _ from e]
    refine (Ker.pay6_apply _ _ _ _ (blk K 0) (Qarr L) (fun _ => 0) (blk V 0) (key_real m K c hK ⟨0, h⟩) (qry_real m L c hL ⟨0, h⟩)
      (fun i => Ker.pay3_apply i) (val_real m V c hV ⟨0, h⟩) r cc).trans ?_
    rw [← num_step L K V 0 r cc, numTo_zero]

include hL hK hV in
/-- After every point. -/
theorem inv_all : ∀ (n : ℕ) (h : n < cfg0.N), Inv m L K V c n h
  | 0, h => inv_zero m L K V c hL hK hV h
  | n + 1, h => by
    have hN : cfg0.N = 50 := N_0
    have ih := inv_all n (Nat.lt_of_succ_lt h)
    have hn : n < 49 := by omega
    have h0 : ¬(⟨n + 1, h⟩ : Fin cfg0.N).val % 50 = 0 := by dsimp only; omega
    have hq : ∀ i : S1024x64.Idx, (outsAt0 m c n (Nat.lt_of_succ_lt h)).2.1 i = ((Qarr L i : ℝ) : EReal) := ih.qry
    have hl : ∀ r : Fin 1024, (outsAt0 m c n (Nat.lt_of_succ_lt h)).2.2 (ix2 r 0) = (((fun r => denTo L K r (n + 1)) r : ℝ) : EReal) := ih.nrm
    have ho : ∀ i : S1024x64.Idx, (outsAt0 m c n (Nat.lt_of_succ_lt h)).1 i = (((fun y : SQ.Idx => numTo L K V (y 0) (y 1) (n + 1)) i : ℝ) : EReal) := ih.acc hn
    have nrm' : ∀ r : Fin 1024, k0_pay5 (F := Ideal) (iblk m c 1 ⟨n + 1, h⟩) (outsAt0 m c n (Nat.lt_of_succ_lt h)).2.1
        (outsAt0 m c n (Nat.lt_of_succ_lt h)).2.2 (ix2 r 0) = ((denTo L K r (n + 1 + 1) : ℝ) : EReal) := fun r =>
      (Ker.pay5_apply _ _ _ (blk K (n + 1)) (Qarr L) (fun r => denTo L K r (n + 1)) (key_real m K c hK ⟨n + 1, h⟩) hq hl r).trans
        (congrArg _ (den_step L K (n + 1) r))
    have acc' : ∀ (r : Fin 1024) (cc : Fin 64), k0_pay6 (F := Ideal) (iblk m c 1 ⟨n + 1, h⟩) (outsAt0 m c n (Nat.lt_of_succ_lt h)).2.1
        (outsAt0 m c n (Nat.lt_of_succ_lt h)).1 (iblk m c 2 ⟨n + 1, h⟩) (ix2 r cc) = ((numTo L K V r cc (n + 1 + 1) : ℝ) : EReal) := fun r cc =>
      (Ker.pay6_apply _ _ _ _ (blk K (n + 1)) (Qarr L) (fun y => numTo L K V (y 0) (y 1) (n + 1)) (blk V (n + 1))
        (key_real m K c hK ⟨n + 1, h⟩) hq ho (val_real m V c hV ⟨n + 1, h⟩) r cc).trans (congrArg _ (num_step L K V (n + 1) r cc))
    by_cases h1 : (⟨n + 1, h⟩ : Fin cfg0.N).val % 50 = 49
    · have e := step_C m c ⟨n + 1, h⟩ h0 h1
      have h48 : n + 1 = 49 := by dsimp only at h1; omega
      refine ⟨fun i => ?_, fun r => ?_, fun hlt => absurd hlt (by omega), fun _ r cc => ?_⟩
      · rw [show outsAt0 m c (n + 1) h = _ from e]; exact hq i
      · rw [show outsAt0 m c (n + 1) h = _ from e]; exact nrm' r
      · rw [show outsAt0 m c (n + 1) h = _ from e]
        refine (Ker.pay7_apply _ _ (fun y => numTo L K V (y 0) (y 1) (n + 1 + 1)) (fun r => denTo L K r (n + 1 + 1))
          (fun i => ?_) nrm' (fun r => (denTo_pos L K r (by omega)).ne') r cc).trans ?_
        · obtain ⟨r', c', rfl⟩ : ∃ (r' : Fin 1024) (c' : Fin 64), i = ix2 r' c' := ⟨i 0, i 1, eq_ix2 i⟩
          exact acc' r' c'
        · show ((numTo L K V r cc (n + 1 + 1) / denTo L K r (n + 1 + 1) : ℝ) : EReal) = _
          rw [h48, numTo_full, denTo_full]; rfl
    · have e := step_B m c ⟨n + 1, h⟩ h0 h1
      refine ⟨fun i => ?_, fun r => ?_, fun _ i => ?_, fun h49 => absurd h49 (by dsimp only at h1; omega)⟩
      · rw [show outsAt0 m c (n + 1) h = _ from e]; exact hq i
      · rw [show outsAt0 m c (n + 1) h = _ from e]; exact nrm' r
      · obtain ⟨r, cc, rfl⟩ : ∃ (r : Fin 1024) (cc : Fin 64), i = ix2 r cc := ⟨i 0, i 1, eq_ix2 i⟩
        rw [show outsAt0 m c (n + 1) h = _ from e]; exact acc' r cc

include hL hK hV in
/-- What the last point leaves is the attention output. -/
theorem result_apply (r : Fin 1024) (cc : Fin 64) :
    (Blocks.result m c : Vec Ideal S1024x64 .f32) (ix2 r cc) = ((out L K V r cc : ℝ) : EReal) :=
  (inv_all m L K V c hL hK hV 49 Blocks.last_lt).fin rfl r cc

end Ideal

/-! ## The run -/

section Run

variable {F : FTy → Type} [FloatOps F] [Named F]
variable (m : (ℓ : Loc nD τ sig) → Buf (Elt F) ℓ) (ρ : Dev nD → PrngReg)

/-- Every fair execution ends with the result array at what the last point leaves and the arguments unchanged. -/
theorem run : θ_run defs (onTc (τ := τ) (main (F := F))) ⟨m, fun _ => 0, ρ⟩ fun r => ∀ c : Dev nD,
      r.2.mem ((c : Thread nD τ).loc main_v0) = Blocks.result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (Blocks.final_out m c), (h c).2⟩)
    (Cert.KernelIdeal.Value.run_blocks m ρ)

end Run

end Cert.RelMem.Run

end
-- ==== Proof.RefValue.lean ====
/-
  The reference program's result, read at an index on finite arguments.

  The reference divides each query row and each key row by its floored norm, multiplies the two normalised arrays, applies
  the softmax along the memory axis (row maximum subtracted, exponentials, division by their row sum), and multiplies by the
  value rows.  On finite arguments every stage is a finite real, the row maximum included, and the result at `(r, c)` is the
  attention output of the specification.
-/
import proofs.«107597_g84808424227249_cont_9to1c4b_397_3_alg».proof.Proof.Gen.ReferenceIdeal.Read
import proofs.«107597_g84808424227249_cont_9to1c4b_397_3_alg».proof.Proof.EOps
import Idealize.ShloMosaic.Lib.ValueIdx
import Idealize.ShloMosaic.Lib.ValueLayout
import Idealize.ShloMosaic.Lib.Pipeline.Value

noncomputable section

open scoped BigOperators

namespace Cert.RelMem.Ref

open Idealize.ShloMosaic Idealize.ShloMosaic.ValueIdx Cert.ReferenceIdeal Cert.ReferenceIdeal.Read Cert.RelMem

/-! ## A maximum over a nonempty finite family of finite reals is a finite real -/

/-- Folding the maximum from the bottom element over a finite family of finite reals gives the bottom element when the
    family is empty and a finite real otherwise. -/
theorem fold_max_finite {ι : Type*} (f : ι → EReal) (hf : ∀ i, ∃ x : ℝ, f i = ((x : ℝ) : EReal)) (s : Finset ι) :
    (s = ∅ ∧ s.fold (FloatOps.maximumf (F := Ideal) (φ := .f32)) (⊥ : EReal) f = ⊥)
      ∨ ∃ M : ℝ, s.fold (FloatOps.maximumf (F := Ideal) (φ := .f32)) (⊥ : EReal) f = ((M : ℝ) : EReal) := by
  classical
  induction s using Finset.induction_on with
  | empty => exact Or.inl ⟨rfl, Finset.fold_empty⟩
  | insert a s ha ih =>
    refine Or.inr ?_
    obtain ⟨x, hx⟩ := hf a
    rw [Finset.fold_insert ha, Ideal.maximumf_def, hx]
    rcases ih with ⟨_, h⟩ | ⟨M, h⟩
    · exact ⟨x, by rw [h]; exact max_bot_right _⟩
    · exact ⟨max x M, by rw [h, max_coe]⟩

/-! ## The composed index functions, by coordinates -/

theorem idx_call0_v1 (r : Fin 1024) (k : Fin 64) : idx_main_call0_v1 (ix1 r) k = ix2 r k :=
  funext fun a => Fin.ext (by match a with | ⟨0, _⟩ => rfl | ⟨1, _⟩ => rfl)

theorem idx_call0_v2 (r : Fin 1024) (z : Fin 1) : idx_main_call0_v2 (ix2 r z) = ix1 r :=
  funext fun a => Fin.ext (by match a with | ⟨0, _⟩ => rfl)

theorem idx_v3 (r : Fin 1024) (e : Fin 64) : idx_main_v3 (ix2 r e) = ix2 r (0 : Fin 1) :=
  funext fun a => Fin.ext (by match a with | ⟨0, _⟩ => rfl | ⟨1, _⟩ => rfl)

theorem idx_call1_v1 (j : Fin 100000) (k : Fin 64) : idx_main_call1_v1 (ix1 j) k = ix2 j k :=
  funext fun a => Fin.ext (by match a with | ⟨0, _⟩ => rfl | ⟨1, _⟩ => rfl)

theorem idx_call1_v2 (j : Fin 100000) (z : Fin 1) : idx_main_call1_v2 (ix2 j z) = ix1 j :=
  funext fun a => Fin.ext (by match a with | ⟨0, _⟩ => rfl)

theorem idx_v8 (j : Fin 100000) (e : Fin 64) : idx_main_v8 (ix2 j e) = ix2 j (0 : Fin 1) :=
  funext fun a => Fin.ext (by match a with | ⟨0, _⟩ => rfl | ⟨1, _⟩ => rfl)

theorem idx_v10 (e : Fin 64) (j : Fin 100000) : idx_main_v10 (ix2 e j) = ix2 j e :=
  funext fun a => Fin.ext (by match a with | ⟨0, _⟩ => rfl | ⟨1, _⟩ => rfl)

theorem lidx_v11 (r : Fin 1024) (j : Fin 100000) (k : Fin 64) : lidx_main_v11 (ix2 r j) k = ix2 r k :=
  funext fun a => Fin.ext (by match a with | ⟨0, _⟩ => rfl | ⟨1, _⟩ => rfl)

theorem ridx_v11 (r : Fin 1024) (j : Fin 100000) (k : Fin 64) : ridx_main_v11 (ix2 r j) k = ix2 k j :=
  funext fun a => Fin.ext (by match a with | ⟨0, _⟩ => rfl | ⟨1, _⟩ => rfl)

theorem idx_v15 (r : Fin 1024) (z : Fin 1) : idx_main_v15 (ix2 r z) = ix1 r :=
  funext fun a => Fin.ext (by match a with | ⟨0, _⟩ => rfl)

theorem idx_v16 (r : Fin 1024) (j : Fin 100000) : idx_main_v16 (ix2 r j) = ix2 r (0 : Fin 1) :=
  funext fun a => Fin.ext (by match a with | ⟨0, _⟩ => rfl | ⟨1, _⟩ => rfl)

theorem idx_v19 (r : Fin 1024) (k : Fin 100000) : idx_main_v19 (ix1 r) k = ix2 r k :=
  funext fun a => Fin.ext (by match a with | ⟨0, _⟩ => rfl | ⟨1, _⟩ => rfl)

theorem idx_v20 (r : Fin 1024) (z : Fin 1) : idx_main_v20 (ix2 r z) = ix1 r :=
  funext fun a => Fin.ext (by match a with | ⟨0, _⟩ => rfl)

theorem idx_v21 (r : Fin 1024) (j : Fin 100000) : idx_main_v21 (ix2 r j) = ix2 r (0 : Fin 1) :=
  funext fun a => Fin.ext (by match a with | ⟨0, _⟩ => rfl | ⟨1, _⟩ => rfl)

theorem lidx_v23 (r : Fin 1024) (c : Fin 64) (k : Fin 100000) : lidx_main_v23 (ix2 r c) k = ix2 r k :=
  funext fun a => Fin.ext (by match a with | ⟨0, _⟩ => rfl | ⟨1, _⟩ => rfl)

theorem ridx_v23 (r : Fin 1024) (c : Fin 64) (k : Fin 100000) : ridx_main_v23 (ix2 r c) k = ix2 k c :=
  funext fun a => Fin.ext (by match a with | ⟨0, _⟩ => rfl | ⟨1, _⟩ => rfl)

/-! ## The query side: squared norm, norm, floored norm, normalised row -/

section Stages

variable (x0 : (⟨S1024x64, .f32⟩ : BufTy).Contents (Elt Ideal)) (x1 : (⟨S100000x64, .f32⟩ : BufTy).Contents (Elt Ideal))
  (L : SQ.Idx → ℝ) (K : SM.Idx → ℝ)

theorem qsq_nonneg (r : Fin 1024) : 0 ≤ qsq L r := Finset.sum_nonneg fun e _ => mul_self_nonneg _

theorem ksq_nonneg (j : Fin 100000) : 0 ≤ ksq K j := Finset.sum_nonneg fun e _ => mul_self_nonneg _

/-- A norm floored at the guard is positive. -/
theorem floor_pos (s : ℝ) : 0 < max (Real.sqrt s) guard := lt_max_of_lt_right guard_pos

/-- The sum of squares along a query row. -/
theorem call0_v1_eq (h0 : ∀ i, x0 i = ((L i : ℝ) : EReal)) (r : Fin 1024) :
    val_main_call0_v1 (F := Ideal) x0 (ix1 r) = ((qsq L r : ℝ) : EReal) := by
  rw [val_main_call0_v1_apply, val_main_call0_cst_apply, Ideal.ofBits_def, ofBits_zero, EReal.coe_zero, zero_add]
  unfold qsq
  rw [coe_sum]
  refine Finset.sum_congr rfl fun k _ => ?_
  rw [idx_call0_v1, val_main_call0_v0_apply, Ideal.mulf_def, h0, EReal.coe_mul]

/-- Its square root, kept as a column. -/
theorem v0_eq (h0 : ∀ i, x0 i = ((L i : ℝ) : EReal)) (r : Fin 1024) (z : Fin 1) :
    val_main_v0 (F := Ideal) x0 (ix2 r z) = ((Real.sqrt (qsq L r) : ℝ) : EReal) := by
  rw [val_main_v0_apply, Ideal.hostUnary_sqrt_def, val_main_call0_v2_apply, idx_call0_v2, call0_v1_eq x0 L h0,
    sqrt_coe_of_nonneg (qsq_nonneg L r)]

/-- The norm floored at the guard. -/
theorem v2_eq (h0 : ∀ i, x0 i = ((L i : ℝ) : EReal)) (r : Fin 1024) (z : Fin 1) :
    val_main_v2 (F := Ideal) x0 (ix2 r z) = ((max (Real.sqrt (qsq L r)) guard : ℝ) : EReal) := by
  rw [val_main_v2_apply, Ideal.maximumf_def, v0_eq x0 L h0, val_main_v1_apply, val_main_cst_apply, Ideal.ofBits_def,
    ofBits_guard, max_coe]

/-- The normalised query row. -/
theorem v4_eq (h0 : ∀ i, x0 i = ((L i : ℝ) : EReal)) (r : Fin 1024) (e : Fin 64) :
    val_main_v4 (F := Ideal) x0 (ix2 r e) = ((qn L r e : ℝ) : EReal) := by
  rw [val_main_v4_apply, Ideal.hostDivf_def, val_main_v3_apply, idx_v3, v2_eq x0 L h0, h0,
    div_coe_coe _ (floor_pos _).ne']
  rfl

end Stages

/-! ## The key side: the same four stages along a memory row, then the transpose -/

section KeyStages

variable (x1 : (⟨S100000x64, .f32⟩ : BufTy).Contents (Elt Ideal)) (K : SM.Idx → ℝ)

/-- The sum of squares along a key row. -/
theorem call1_v1_eq (h1 : ∀ i, x1 i = ((K i : ℝ) : EReal)) (j : Fin 100000) :
    val_main_call1_v1 (F := Ideal) x1 (ix1 j) = ((ksq K j : ℝ) : EReal) := by
  rw [val_main_call1_v1_apply, val_main_call1_cst_apply, Ideal.ofBits_def, ofBits_zero, EReal.coe_zero, zero_add]
  unfold ksq
  rw [coe_sum]
  refine Finset.sum_congr rfl fun k _ => ?_
  rw [idx_call1_v1, val_main_call1_v0_apply, Ideal.mulf_def, h1, EReal.coe_mul]

/-- Its square root, kept as a column. -/
theorem v5_eq (h1 : ∀ i, x1 i = ((K i : ℝ) : EReal)) (j : Fin 100000) (z : Fin 1) :
    val_main_v5 (F := Ideal) x1 (ix2 j z) = ((Real.sqrt (ksq K j) : ℝ) : EReal) := by
  rw [val_main_v5_apply, Ideal.hostUnary_sqrt_def, val_main_call1_v2_apply, idx_call1_v2, call1_v1_eq x1 K h1,
    sqrt_coe_of_nonneg (ksq_nonneg K j)]

/-- The key's norm floored at the guard. -/
theorem v7_eq (h1 : ∀ i, x1 i = ((K i : ℝ) : EReal)) (j : Fin 100000) (z : Fin 1) :
    val_main_v7 (F := Ideal) x1 (ix2 j z) = ((max (Real.sqrt (ksq K j)) guard : ℝ) : EReal) := by
  rw [val_main_v7_apply, Ideal.maximumf_def, v5_eq x1 K h1, val_main_v6_apply, val_main_cst_0_apply, Ideal.ofBits_def,
    ofBits_guard, max_coe]

/-- The normalised key row. -/
theorem v9_eq (h1 : ∀ i, x1 i = ((K i : ℝ) : EReal)) (j : Fin 100000) (e : Fin 64) :
    val_main_v9 (F := Ideal) x1 (ix2 j e) = ((K (ix2 j e) / max (Real.sqrt (ksq K j)) guard : ℝ) : EReal) := by
  rw [val_main_v9_apply, Ideal.hostDivf_def, val_main_v8_apply, idx_v8, v7_eq x1 K h1, h1,
    div_coe_coe _ (floor_pos _).ne']

/-- The normalised keys transposed: entry `(e, j)` is entry `(j, e)`. -/
theorem v10_eq (h1 : ∀ i, x1 i = ((K i : ℝ) : EReal)) (e : Fin 64) (j : Fin 100000) :
    val_main_v10 (F := Ideal) x1 (ix2 e j) = ((K (ix2 j e) / max (Real.sqrt (ksq K j)) guard : ℝ) : EReal) := by
  rw [val_main_v10_apply, idx_v10, v9_eq x1 K h1]

end KeyStages

/-! ## The similarity matrix -/

section Sim

variable (x0 : (⟨S1024x64, .f32⟩ : BufTy).Contents (Elt Ideal)) (x1 : (⟨S100000x64, .f32⟩ : BufTy).Contents (Elt Ideal))
  (L : SQ.Idx → ℝ) (K : SM.Idx → ℝ)

/-- The product of the normalised queries with the transposed normalised keys is the similarity. -/
theorem v11_eq (h0 : ∀ i, x0 i = ((L i : ℝ) : EReal)) (h1 : ∀ i, x1 i = ((K i : ℝ) : EReal)) (r : Fin 1024)
    (j : Fin 100000) : val_main_v11 (F := Ideal) x0 x1 (ix2 r j) = ((sim L K r j : ℝ) : EReal) := by
  rw [val_main_v11_apply, ← sim_eq_div, coe_sum]
  refine Finset.sum_congr rfl fun k _ => ?_
  rw [lidx_v11, ridx_v11, v4_eq x0 L h0, v10_eq x1 K h1, EReal.coe_mul]

/-- So every entry of the similarity matrix is a finite real. -/
theorem v11_finite (h0 : ∀ i, x0 i = ((L i : ℝ) : EReal)) (h1 : ∀ i, x1 i = ((K i : ℝ) : EReal))
    (i : S1024x100000.Idx) : ∃ s : ℝ, val_main_v11 (F := Ideal) x0 x1 i = ((s : ℝ) : EReal) := by
  rw [eq_ix2 i]
  exact ⟨_, v11_eq x0 x1 L K h0 h1 _ _⟩

end Sim

/-! ## The row maximum is a finite real -/

section RowMax

variable (x0 : (⟨S1024x64, .f32⟩ : BufTy).Contents (Elt Ideal)) (x1 : (⟨S100000x64, .f32⟩ : BufTy).Contents (Elt Ideal))
  (L : SQ.Idx → ℝ) (K : SM.Idx → ℝ)

/-- The maximum along a row of the similarity matrix, taken from the bottom element and floored at it once more, is some
    finite real: the row has an entry, and every entry is finite. -/
theorem v14_finite (h0 : ∀ i, x0 i = ((L i : ℝ) : EReal)) (h1 : ∀ i, x1 i = ((K i : ℝ) : EReal)) (r : Fin 1024) :
    ∃ M : ℝ, val_main_v14 (F := Ideal) x0 x1 (ix1 r) = ((M : ℝ) : EReal) := by
  have hred : S1024x100000.Reduces [1] S1024 := by decide
  have h12 : val_main_v12 (F := Ideal) x0 x1 (ix1 r)
      = (Finset.univ : Finset (Fin (S1024x100000.size 1))).fold (FloatOps.maximumf (F := Ideal) (φ := .f32)) (⊥ : EReal)
          (val_main_v11 (F := Ideal) x0 x1 ∘ hred.lift (ix1 r)) := by
    unfold val_main_v12
    generalize val_main_v11 (F := Ideal) x0 x1 = y
    rw [Host.reduce_eq_fold_single _ _ _ _ hred, val_main_cst_1_apply, Ideal.ofBits_def, ofBits_neg_inf]
  rw [val_main_v14_apply, Ideal.maximumf_def, val_main_v13_apply, val_main_cst_2_apply, Ideal.ofBits_def, ofBits_neg_inf,
    max_bot_left, h12]
  rcases fold_max_finite (val_main_v11 (F := Ideal) x0 x1 ∘ hred.lift (ix1 r))
      (fun k => v11_finite x0 x1 L K h0 h1 (hred.lift (ix1 r) k)) Finset.univ with ⟨he, _⟩ | h
  · have hne : (Finset.univ : Finset (Fin (S1024x100000.size 1))).Nonempty := ⟨⟨0, by decide⟩, Finset.mem_univ _⟩
    exact absurd he hne.ne_empty
  · exact h

end RowMax

/-! ## The softmax: shift by the row maximum, exponentials, their row sum, the quotient -/

section Softmax

variable (x0 : (⟨S1024x64, .f32⟩ : BufTy).Contents (Elt Ideal)) (x1 : (⟨S100000x64, .f32⟩ : BufTy).Contents (Elt Ideal))
  (L : SQ.Idx → ℝ) (K : SM.Idx → ℝ)

/-- The similarity shifted by the row maximum `M`. -/
theorem v17_eq (h0 : ∀ i, x0 i = ((L i : ℝ) : EReal)) (h1 : ∀ i, x1 i = ((K i : ℝ) : EReal)) (r : Fin 1024) (M : ℝ)
    (hM : val_main_v14 (F := Ideal) x0 x1 (ix1 r) = ((M : ℝ) : EReal)) (j : Fin 100000) :
    val_main_v17 (F := Ideal) x0 x1 (ix2 r j) = ((sim L K r j - M : ℝ) : EReal) := by
  rw [val_main_v17_apply, Ideal.subf_def, v11_eq x0 x1 L K h0 h1, val_main_v16_apply, idx_v16, val_main_v15_apply, idx_v15,
    hM, EReal.coe_sub]

/-- Its exponential. -/
theorem v18_eq (h0 : ∀ i, x0 i = ((L i : ℝ) : EReal)) (h1 : ∀ i, x1 i = ((K i : ℝ) : EReal)) (r : Fin 1024) (M : ℝ)
    (hM : val_main_v14 (F := Ideal) x0 x1 (ix1 r) = ((M : ℝ) : EReal)) (j : Fin 100000) :
    val_main_v18 (F := Ideal) x0 x1 (ix2 r j) = ((Real.exp (sim L K r j - M) : ℝ) : EReal) := by
  rw [val_main_v18_apply, Ideal.hostUnary_exp_def, v17_eq x0 x1 L K h0 h1 r M hM, exp_coe]

/-- The row sum of the exponentials. -/
theorem v19_eq (h0 : ∀ i, x0 i = ((L i : ℝ) : EReal)) (h1 : ∀ i, x1 i = ((K i : ℝ) : EReal)) (r : Fin 1024) (M : ℝ)
    (hM : val_main_v14 (F := Ideal) x0 x1 (ix1 r) = ((M : ℝ) : EReal)) :
    val_main_v19 (F := Ideal) x0 x1 (ix1 r) = ((∑ j : Fin 100000, Real.exp (sim L K r j - M) : ℝ) : EReal) := by
  rw [val_main_v19_apply, val_main_cst_3_apply, Ideal.ofBits_def, ofBits_zero, EReal.coe_zero, zero_add, coe_sum]
  refine Finset.sum_congr rfl fun k _ => ?_
  rw [idx_v19, v18_eq x0 x1 L K h0 h1 r M hM]

/-- That row sum is positive: the row has an entry and every exponential is positive. -/
theorem expsum_pos (r : Fin 1024) (M : ℝ) : 0 < ∑ j : Fin 100000, Real.exp (sim L K r j - M) :=
  Finset.sum_pos (fun j _ => Real.exp_pos _) ⟨⟨0, by norm_num⟩, Finset.mem_univ _⟩

/-- The normalised weight. -/
theorem v22_eq (h0 : ∀ i, x0 i = ((L i : ℝ) : EReal)) (h1 : ∀ i, x1 i = ((K i : ℝ) : EReal)) (r : Fin 1024) (M : ℝ)
    (hM : val_main_v14 (F := Ideal) x0 x1 (ix1 r) = ((M : ℝ) : EReal)) (j : Fin 100000) :
    val_main_v22 (F := Ideal) x0 x1 (ix2 r j)
      = ((Real.exp (sim L K r j - M) / ∑ j' : Fin 100000, Real.exp (sim L K r j' - M) : ℝ) : EReal) := by
  rw [val_main_v22_apply, Ideal.hostDivf_def, v18_eq x0 x1 L K h0 h1 r M hM, val_main_v21_apply, idx_v21,
    val_main_v20_apply, idx_v20, v19_eq x0 x1 L K h0 h1 r M hM, div_coe_coe _ (expsum_pos L K r M).ne']

end Softmax

/-! ## The result -/

/-- The reference's result array on finite arguments is the attention output. -/
theorem result_eq (x0 : (⟨S1024x64, .f32⟩ : BufTy).Contents (Elt Ideal)) (x1 x2 : (⟨S100000x64, .f32⟩ : BufTy).Contents (Elt Ideal))
    (L : SQ.Idx → ℝ) (K V : SM.Idx → ℝ)
    (h0 : ∀ i, x0 i = ((L i : ℝ) : EReal)) (h1 : ∀ i, x1 i = ((K i : ℝ) : EReal)) (h2 : ∀ i, x2 i = ((V i : ℝ) : EReal))
    (r : Fin 1024) (c : Fin 64) :
    val_main_v23 (F := Ideal) x0 x1 x2 (ix2 r c) = ((out L K V r c : ℝ) : EReal) := by
  obtain ⟨M, hM⟩ := v14_finite x0 x1 L K h0 h1 r
  rw [val_main_v23_apply, ← out_eq_softmax L K V r c M, coe_sum]
  refine Finset.sum_congr rfl fun k _ => ?_
  rw [lidx_v23, ridx_v23, v22_eq x0 x1 L K h0 h1 r M hM, h2, EReal.coe_mul]

end Cert.RelMem.Ref

end
-- ==== Proof.Finite.lean ====
/-
  Finite inputs are real arrays.

  The precondition says of each of the three argument arrays that every entry's absolute value is below positive infinity.
  An extended real whose absolute value is below the top element is a finite real; so each array is the coercion of a real
  array.
-/
import proofs.«107597_g84808424227249_cont_9to1c4b_397_3_alg».proof.Pre_finite_inputs
import proofs.«107597_g84808424227249_cont_9to1c4b_397_3_alg».proof.Proof.Gen.Pre_finite_inputs
import proofs.«107597_g84808424227249_cont_9to1c4b_397_3_alg».proof.Proof.Spec
import Idealize.ShloMosaic.PureOps.Ideal
import Idealize.ShloMosaic.PureOps.Ideal.Laws
import Idealize.ShloMosaic.Lib.ValueIdx
import Idealize.ShloMosaic.Lib.ReduceAll

noncomputable section

namespace Cert.RelMem

open Idealize.ShloMosaic Idealize.ShloMosaic.ValueIdx

namespace FiniteAux

/-- The shape of a scalar has exactly one index. -/
instance subsingleton_scalar_idx : Subsingleton Cert.Pre_finite_inputs.S_.Idx :=
  ⟨fun a b => funext fun d => d.elim0⟩

/-- The pattern with all exponent bits set, sign clear and zero fraction denotes the top element. -/
theorem ofBits_pos_inf : Ideal.ofBits .f32 0x7F800000#32 = (⊤ : EReal) := by
  simp [Ideal.ofBits, Ideal.ieee]

/-- An extended real whose absolute value `max x (-x)` is strictly below the top element is a real number:
    at the top element the maximum is the top element itself, at the bottom element `-x` is the top element. -/
theorem real_of_abs_lt_top (x : EReal) (h : Ideal.cmp .olt (max x (-x)) (⊤ : EReal) = 1#1) :
    ∃ r : ℝ, x = ((r : ℝ) : EReal) := by
  induction x using EReal.rec with
  | bot => simp [Ideal.cmp] at h
  | coe r => exact ⟨r, rfl⟩
  | top => simp [Ideal.cmp] at h

/-- One array: if the conjunction over all entries of "absolute value below positive infinity" holds, every entry is real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1) (i : s.Idx) :
    ∃ r : ℝ, a i = ((r : ℝ) : EReal) := by
  have h1 := Host.reduce_andi_all _ _ hr hu ix0 e i
  have h2 : Ideal.cmp .olt (max (a i) (-(a i))) (Ideal.ofBits .f32 0x7F800000#32) = 1#1 := h1
  rw [ofBits_pos_inf] at h2
  exact real_of_abs_lt_top (a i) h2

end FiniteAux

/-- Under the precondition the three argument arrays are coercions of real arrays. -/
theorem real_of_pre [Cert.Pre_finite_inputs.Facts]
    (a0 : FVec Ideal Cert.Pre_finite_inputs.S1024x64 .f32) (a1 a2 : FVec Ideal Cert.Pre_finite_inputs.S100000x64 .f32)
    (h : Cert.Pre_finite_inputs.fn (F := Ideal) a0 a1 a2 = fun _ => 1#1) :
    ∃ (L : SQ.Idx → ℝ) (K V : SM.Idx → ℝ),
      (∀ i, a0 i = ((L i : ℝ) : EReal)) ∧ (∀ i, a1 i = ((K i : ℝ) : EReal)) ∧ (∀ i, a2 i = ((V i : ℝ) : EReal)) := by
  have h0 := congrFun h ix0
  dsimp only [Cert.Pre_finite_inputs.fn, andi] at h0
  obtain ⟨h01, h2⟩ := IntOp.andi_eq_one.1 h0
  obtain ⟨h0', h1⟩ := IntOp.andi_eq_one.1 h01
  choose L hL using FiniteAux.real_of_all a0 _ _ _ h0'
  choose K hK using FiniteAux.real_of_all a1 _ _ _ h1
  choose V hV using FiniteAux.real_of_all a2 _ _ _ h2
  exact ⟨L, K, V, hL, hK, hV⟩

end Cert.RelMem

end
-- ==== Proof.lean ====
/-
  Attention of 1024 query rows over 100000 memory rows: the streamed kernel against the plain reference.

  Both programs normalise each query row and each key row by its Euclidean norm floored at a guard `g`, take the
  exponential of the inner products as weights, and return the weighted mean of the value rows.  They differ in three
  ways, none of which changes the value over the extended reals on finite inputs.
  The kernel floors the SQUARED key norm and takes an inverse square root; its floor is the constant named the guard's
  square, so `(sqrt (max s (g*g)))⁻¹ = 1 / max (sqrt s) g`.
  The reference subtracts each row's maximum similarity before exponentiating and normalises every weight before summing
  against the values; the kernel exponentiates the raw similarities, accumulates the normaliser and the weighted sum over
  50 blocks of 2000 memory rows, and divides once at the end: `exp (s - M) = exp s / exp M`, and the positive factor
  `exp M` cancels from the quotient.
  The kernel scales an inner product by the inverse key norm where the reference divides each key entry first: a finite
  sum commutes with a constant factor.
  Finiteness of the inputs is what makes every intermediate a finite real, so that these laws of the real field apply.
-/
import proofs.«107597_g84808424227249_cont_9to1c4b_397_3_alg».proof.Defs
import proofs.«107597_g84808424227249_cont_9to1c4b_397_3_alg».proof.Proof.Gen.Kernel
import proofs.«107597_g84808424227249_cont_9to1c4b_397_3_alg».proof.Proof.Gen.Kernel.Skeleton
import proofs.«107597_g84808424227249_cont_9to1c4b_397_3_alg».proof.Proof.Gen.Kernel.Launch
import proofs.«107597_g84808424227249_cont_9to1c4b_397_3_alg».proof.Proof.Gen.Kernel.Points
import proofs.«107597_g84808424227249_cont_9to1c4b_397_3_alg».proof.Proof.Gen.Kernel.Frame
import proofs.«107597_g84808424227249_cont_9to1c4b_397_3_alg».proof.Proof.Gen.KernelIdeal
import proofs.«107597_g84808424227249_cont_9to1c4b_397_3_alg».proof.Proof.Gen.KernelIdeal.Skeleton
import proofs.«107597_g84808424227249_cont_9to1c4b_397_3_alg».proof.Proof.Gen.KernelIdeal.Launch
import proofs.«107597_g84808424227249_cont_9to1c4b_397_3_alg».proof.Proof.Gen.KernelIdeal.Points
import proofs.«107597_g84808424227249_cont_9to1c4b_397_3_alg».proof.Proof.Gen.KernelIdeal.Frame
import proofs.«107597_g84808424227249_cont_9to1c4b_397_3_alg».proof.Proof.Gen.ReferenceIdeal
import proofs.«107597_g84808424227249_cont_9to1c4b_397_3_alg».proof.Proof.Gen.Pre_finite_inputs
import proofs.«107597_g84808424227249_cont_9to1c4b_397_3_alg».proof.Proof.Gen.KernelIdeal.Value
import proofs.«107597_g84808424227249_cont_9to1c4b_397_3_alg».proof.Proof.Gen.ReferenceIdeal.Run
import proofs.«107597_g84808424227249_cont_9to1c4b_397_3_alg».proof.Proof.Gen.ReferenceIdeal.Read
import proofs.«107597_g84808424227249_cont_9to1c4b_397_3_alg».proof.Proof.KernelRun
import proofs.«107597_g84808424227249_cont_9to1c4b_397_3_alg».proof.Proof.RefValue
import proofs.«107597_g84808424227249_cont_9to1c4b_397_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: the floor on squared key norms is named the guard's square, the value the
    certificate's table gives that name. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- On finite inputs both programs end with the attention output in their result arrays. -/
theorem algebraic : Cert.algebraic_KernelIdeal_ReferenceIdeal := by
  intro m ρ m' ρ' hpre hagree
  refine ⟨fun c => Cert.RelMem.Blocks.result m c, Cert.RelMem.Run.run m ρ, ?_⟩
  refine (θ_run Cert.ReferenceIdeal.defs _ _).mono (fun _ h c => ⟨(h c).1.trans ?_, (h c).2⟩)
    (Cert.ReferenceIdeal.Value.run (F := Ideal) m' ρ')
  obtain ⟨L, K, V, hL, hK, hV⟩ := Cert.RelMem.real_of_pre _ _ _ (hpre c)
  rw [Cert.ReferenceIdeal.Read.val_main_v23_eq, (hagree c).1, (hagree c).2.1, (hagree c).2.2]
  funext i
  obtain ⟨r, cc, rfl⟩ : ∃ (r : Fin 1024) (cc : Fin 64), i = ix2 r cc := ⟨i 0, i 1, eq_ix2 i⟩
  exact (Cert.RelMem.Ref.result_eq _ _ _ L K V hL hK hV r cc).trans
    (Cert.RelMem.Run.result_apply m L K V c hL hK hV r cc).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
